-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_arg4 : FVec F S16384 .f32) (main_arg5 : FVec F S16384x4096 .f32) (main_arg6 : FVec F S4096 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096 .f32) (main_arg2 : FVec F S4096 .f32) (main_arg3 : FVec F S4096x16384 .f32) (main_arg4 : FVec F S16384 .f32) (main_arg5 : FVec F S16384x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x16384 : Shape := ⟨2, ![1, 16384]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384, .f32⟩
  | .hbm, ⟨5, _⟩ => ⟨S16384x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S4096x4096, .bf16⟩
  | .hbm, ⟨10, _⟩ => ⟨S4096x16384, .bf16⟩
  | .hbm, ⟨11, _⟩ => ⟨S16384x4096, .bf16⟩
  | .hbm, ⟨12, _⟩ => ⟨S1x16384, .f32⟩
  | .hbm, ⟨13, _⟩ => ⟨S1x4096, .f32⟩
  | .hbm, ⟨14, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | .local _ .vmem, ⟨6, _⟩ => ⟨S512x4096, .bf16⟩
  | .local _ .vmem, ⟨7, _⟩ => ⟨S4096x512, .bf16⟩
  | .local _ .vmem, ⟨8, _⟩ => ⟨S4096x512, .bf16⟩
  | .local _ .vmem, ⟨9, _⟩ => ⟨S1x512, .f32⟩
  | .local _ .vmem, ⟨10, _⟩ => ⟨S1x512, .f32⟩
  | .local _ .vmem, ⟨11, _⟩ => ⟨S512x4096, .bf16⟩
  | .local _ .vmem, ⟨12, _⟩ => ⟨S512x4096, .bf16⟩
  | .local _ .vmem, ⟨13, _⟩ => ⟨S1x4096, .f32⟩
  | .local _ .vmem, ⟨14, _⟩ => ⟨S512x4096, .f32⟩
  | .local _ .vmem, ⟨15, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 32], ![false, false]⟩

def k1_cond2 (i : grid1.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  broadcasts_S1x4096_S512x4096 : S1x4096.Broadcasts S512x4096
  dot_S512x4096_S4096x512_S512x512_1_0_0_1_n_n_wf : DotDims.WF S512x4096 S4096x512 S512x512 [1] [0] [0] [1] [] []
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x16384.size a
  hwx1_1 : ∀ i : grid1.Coords, EltTy.bits .bf16 = 32 ∨ (Rect.block (s := S4096x16384) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S16384x4096.size a
  hwx1_3 : ∀ i : grid1.Coords, EltTy.bits .bf16 = 32 ∨ (Rect.block (s := S16384x4096) S512x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S4096x4096.size a
  hwx1_5 : ∀ i : grid1.Coords, EltTy.bits .f32 = 32 ∨ (Rect.block (s := S4096x4096) S512x4096.size (cc1_transform_5 i) (hinb1_5 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x4096.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩
abbrev S4096x1 : Shape := ⟨2, ![4096, 1]⟩
abbrev S1x4096 : Shape := ⟨2, ![1, 4096]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384, .f32⟩
  | .hbm, ⟨5, _⟩ => ⟨S16384x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x16384, .f32⟩
  | .hbm, ⟨37, _⟩ => ⟨S1x16384, .f32⟩
  | .hbm, ⟨38, _⟩ => ⟨S4096x16384, .f32⟩
  | .hbm, ⟨39, _⟩ => ⟨S4096x16384, .f32⟩
  | .hbm, ⟨40, _⟩ => ⟨S_, .f32⟩
  | .hbm, ⟨41, _⟩ => ⟨S4096x16384, .f32⟩
  | .hbm, ⟨42, _⟩ => ⟨S4096x16384, .f32⟩
  | .hbm, ⟨43, _⟩ => ⟨S_, .f32⟩
  | .hbm, ⟨44, _⟩ => ⟨S4096x16384, .f32⟩
  | .hbm, ⟨45, _⟩ => ⟨S4096x16384, .f32⟩
  | .hbm, ⟨46, _⟩ => ⟨S4096x16384, .f32⟩
  | .hbm, ⟨47, _⟩ => ⟨S4096x16384, .f32⟩
  | .hbm, ⟨48, _⟩ => ⟨S4096x16384, .f32⟩
  | .hbm, ⟨49, _⟩ => ⟨S_, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S_, .f32⟩
  | .hbm, ⟨54, _⟩ => ⟨S4096x16384, .f32⟩
  | .hbm, ⟨55, _⟩ => ⟨S4096x16384, .f32⟩
  | .hbm, ⟨56, _⟩ => ⟨S4096x16384, .f32⟩
  | .hbm, ⟨57, _⟩ => ⟨S4096x4096, .f32⟩
  | .hbm, ⟨58, _⟩ => ⟨S1x4096, .f32⟩
  | .hbm, ⟨59, _⟩ => ⟨S4096x4096, .f32⟩
  | .hbm, ⟨60, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x4096_S4096x16384_S4096x16384_1_0_0_1_n_n_wf : DotDims.WF S4096x4096 S4096x16384 S4096x16384 [1] [0] [0] [1] [] []
  dot_S4096x16384_S16384x4096_S4096x4096_1_0_0_1_n_n_wf : DotDims.WF S4096x16384 S16384x4096 S4096x4096 [1] [0] [0] [1] [] []

variable [Facts₀]

def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf

class Facts : Prop extends Facts₀ where

variable [Facts]
-- ==== Proof.K.Region0.lean ====
/-
  The first pallas_call (the layer normalisation) as a pipeline region, at any float instance: what each of its
  windows holds at a grid point, what the body leaves in the output window's buffer — the normalised rows, the
  body's one stored value as a function of the three input blocks —, the proof data of the pipeline and the body
  obligation at every point. The contents `V` the region is entered from are a parameter.
-/
import proofs.«133951_j65077344469262_1_alg».proof.Proof.Gen.Kernel.Launch
import proofs.«133951_j65077344469262_1_alg».proof.Proof.Gen.Kernel.Skeleton
import proofs.«133951_j65077344469262_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-shape rectangle at zero offsets covers every index of the shape (stated over an
    abstract shape, so that no membership in a rectangle of large extents is ever evaluated). -/
private theorem cover_whole {Val : EltTy → Type} {S : Shape} {e : EltTy} {off : Fin S.rank → Nat} (h : off = fun _ => 0)
    (inb : ∀ a, off a + S.size a ≤ S.size a) (w : S.Idx → Val e) (y : S.Idx) :
    ∃ pc ∈ ([⟨Rect.unit off S.size inb, w⟩] : List (View.Piece Val S e)), y ∈ pc.1.set :=
  ⟨_, List.mem_singleton_self _, View.mem_set_unit_zero h inb y⟩

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
/-- The layer-normalisation body on whole staging memrefs: the three inputs are kept, the output buffer ends at the
    body's stored value of them. -/
theorem run0 (c : Dev nD) (E : Set ℕ) (i : grid0.Coords)
    (arg1 : Memref sig .tc .vmem S256x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S256x4096 .bf16) (harg4 : arg4.IsWhole)
    (x1 : Vec F S256x4096 .f32) (x2 x3 : Vec F S1x4096 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k0_pay1 x1 x2 x3)) -∗ K ⟨⟩))
      ⊢ wp frame (wpE (defs₀ (F := F)) Variants.none c none) E (cc0__ln_kernel i arg1 harg1 arg2 harg2 arg3 harg3 arg4 harg4) K := by
  simp only [cc0__ln_kernel_eq_skeleton]; unfold cc0__ln_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as the store's payload; each load is of the whole buffer
  have hz : (![0, 0] : Fin 2 → Nat) = fun _ => 0 := by funext a; fin_cases a <;> rfl
  refine (View.read_writes_eq_canon _ _ _ (cover_whole (S := S256x4096) hz inb_S256x4096_S256x4096_0_0 _)).trans ?_
  rw [View.canon_unit_zero hz]
  simp only [View.readAt_eq_ld, View.ld_unit_zero (S := S256x4096) hz, View.ld_unit_zero (S := S1x4096) hz]

/-- The proof data of pipeline 0 on core `c`: the arrays as the region finds them; after the body each input's buffer
    at its block and the output's at the normalised block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What the body finds in the input windows' buffers

An input window of this pipeline is uncut and never idle and the body leaves its buffer as found, so at every point its
current buffer holds the block of the array there, whether the point fetched it or not: a point that does not fetch has
the block index of the point before. -/

private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

private theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The body at a point, the windows written out: the three inputs' buffers hold their blocks, so `run0` runs the body to
    the output's buffer at the normalised block; the invariant and what the core owes are the same at the next point and
    pass through unread. -/
private theorem body0_at (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of pipeline 0, at every point. -/
theorem body_obligation0 (c : Dev nD) : BodyObligation (dat0 (F := F) V c) (defs₀ (F := F)) Variants.none () Set.univ := fun t => by
  rw [bigSep_W0, bigSep_W0]
  exact body0_at V c t

end Region0

end Cert.Kernel.Hand

end
-- ==== Proof.K.Body1.lean ====
/-
  The body of the second pallas_call on whole staging memrefs, at any float instance, in each of the three cases
  its two branches meet on the grid: the first block of a row tile (the accumulator is reset, then added to), a
  middle block (added to), the last block (added to, then the accumulator plus the bias row is stored to the
  output buffer). The inputs are kept; the accumulator ends at the block's contribution over what it held (or over
  the stored zero); the output buffer is untouched except in the last case.
-/
import proofs.«133951_j65077344469262_1_alg».proof.Proof.Gen.Kernel.Launch
import proofs.«133951_j65077344469262_1_alg».proof.Proof.Gen.Kernel.Skeleton
import proofs.«133951_j65077344469262_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (reset the accumulator) is taken where the inner grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The second branch (write the output block) is taken where the inner grid coordinate is 31. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The zero offsets of a rank-2 rectangle, as the constant function. -/
private theorem hz2 : (![0, 0] : Fin 2 → Nat) = fun _ => 0 := funext fun a => by fin_cases a <;> rfl

/-- A buffer read back after a LAST store through the whole-shape rectangle reads that store's payload, whatever the
    earlier stores and the prior contents were: the one piece covers every index. -/
private theorem read_writes_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-- A load through the whole-shape rectangle of a whole memref holding `X` reads `X`. -/
private theorem readAt_whole {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

set_option maxHeartbeats 1000000 in
/-- First block of a row tile: the accumulator, at anything, ends at the block's contribution over the stored zero. -/
theorem run1_A (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : cond1_0 i) (hc1 : ¬cond1_1 i) (x2 : Vec F S512x4096 .bf16) (x3 : Vec F S4096x512 .bf16) (x4 : Vec F S1x512 .f32) (x5 : Vec F S512x4096 .bf16) (x6 : Vec F S1x4096 .f32) (d7 : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ s, owns (c : Thread nD τ) arg8 fullShare s)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7
            ∗ owns (c : Thread nD τ) arg8 fullShare (k1_pay3 x2 x3 x4 x5 (k1_pay2 (F := F)))) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %f8, -, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  rotate_left
  · iexact H8
  · ipureintro
    sl_unfold_words
    rw [read_writes_whole _ _ hz2, readAt_whole arg2 harg2 hz2, readAt_whole arg3 harg3 hz2, readAt_whole arg4 harg4 hz2,
      readAt_whole arg5 harg5 hz2, View.readCov_unit_zero (S := S512x4096) _ hz2]

set_option maxHeartbeats 1000000 in
/-- A middle block: the accumulator ends at the block's contribution over what it held. -/
theorem run1_B (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : ¬cond1_0 i) (hc1 : ¬cond1_1 i) (x2 : Vec F S512x4096 .bf16) (x3 : Vec F S4096x512 .bf16) (x4 : Vec F S1x512 .f32) (x5 : Vec F S512x4096 .bf16) (x6 : Vec F S1x4096 .f32) (d7 : Vec F S512x4096 .f32) (s : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7
            ∗ owns (c : Thread nD τ) arg8 fullShare (k1_pay3 x2 x3 x4 x5 s)) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  rotate_left
  · iexact H8
  · ipureintro
    rw [read_writes_whole _ _ hz2, readAt_whole arg2 harg2 hz2, readAt_whole arg3 harg3 hz2, readAt_whole arg4 harg4 hz2,
      readAt_whole arg5 harg5 hz2, readAt_whole arg8 harg8 hz2]

set_option maxHeartbeats 1000000 in
/-- The last block: the accumulator as in a middle block, and the output buffer ends at the new accumulator plus the bias row. -/
theorem run1_C (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : ¬cond1_0 i) (hc1 : cond1_1 i) (x2 : Vec F S512x4096 .bf16) (x3 : Vec F S4096x512 .bf16) (x4 : Vec F S1x512 .f32) (x5 : Vec F S512x4096 .bf16) (x6 : Vec F S1x4096 .f32) (s : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k1_pay1 (k1_pay3 x2 x3 x4 x5 s) x6)
            ∗ owns (c : Thread nD τ) arg8 fullShare (k1_pay3 x2 x3 x4 x5 s)) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      sl_unfold_words
      rw [read_writes_whole _ _ hz2, readAt_whole arg6 harg6 hz2, View.readCov_unit_zero (S := S512x4096) _ hz2,
        readAt_whole arg2 harg2 hz2, readAt_whole arg3 harg3 hz2, readAt_whole arg4 harg4 hz2,
        readAt_whole arg5 harg5 hz2, readAt_whole arg8 harg8 hz2]
  iexists _; isplitr
  rotate_left
  · iexact H8
  · ipureintro
    sl_unfold_words
    rw [read_writes_whole _ _ hz2, readAt_whole arg2 harg2 hz2, readAt_whole arg3 harg3 hz2, readAt_whole arg4 harg4 hz2,
      readAt_whole arg5 harg5 hz2, readAt_whole arg8 harg8 hz2]

end Cert.Kernel.Hand

end
-- ==== Proof.K.Region1.lean ====
/-
  The second pallas_call (first matrix product, GELU, second matrix product accumulated over the 32 blocks of the
  hidden axis) as a pipeline region, at any float instance. The kernel keeps a 512 x 4096 accumulator in a scratch
  buffer across grid points: reset at the first block of every row tile, added to at every block, and written out
  (plus the bias) at the last block. What the accumulator holds after each point is a recursion on the point; the
  region's invariant carries the scratch at exactly that value. The contents `V` the region is entered from are a
  parameter.
-/
import proofs.«133951_j65077344469262_1_alg».proof.Proof.Gen.Kernel.Launch
import proofs.«133951_j65077344469262_1_alg».proof.Proof.Gen.Kernel.Skeleton
import proofs.«133951_j65077344469262_1_alg».proof.Proof.Gen.Kernel.Points
import proofs.«133951_j65077344469262_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a memref. -/
abbrev scM1 : Memref sig .tc .vmem S512x4096 .f32 := Memref.whole cc1_scratch0

/-- THE ACCUMULATION: what the scratch accumulator holds after the body at position `n`: at the first block of a
    row tile the block's contribution added to the zero the body has just stored, elsewhere added to what the
    point before left. -/
def accAt1 (c : Dev nD) : (n : ℕ) → n < cfg1.N → Vec F S512x4096 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn =>
    if (n + 1) % 32 = 0 then
      k1_pay3 (iblk1 V c 0 ⟨n + 1, hn⟩) (iblk1 V c 1 ⟨n + 1, hn⟩) (iblk1 V c 2 ⟨n + 1, hn⟩) (iblk1 V c 3 ⟨n + 1, hn⟩) (k1_pay2 (F := F))
    else
      k1_pay3 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

/-- At the first block of a row tile: the block's contribution over the stored zero. -/
theorem accAt1_first (c : Dev nD) (t : Fin cfg1.N) (h0 : t.val % 32 = 0) :
    accAt1 V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (if_pos h0).trans rfl

/-- At a later block: the block's contribution over what the point before left. -/
theorem accAt1_next (c : Dev nD) (t : Fin cfg1.N) (h0 : ¬ t.val % 32 = 0) :
    accAt1 V c t.val t.isLt = k1_pay3 (iblk1 V c 0 t) (iblk1 V c 1 t) (iblk1 V c 2 t) (iblk1 V c 3 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scoped buffers of the OTHER pallas_call (its six staging buffers), each whole at some contents: they ride
    through this region untouched. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant of this region, with the scratch accumulator named: the other call's staging buffers,
    the accumulator at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM1 fullShare d)) ∗ (∃ r, prngReg c r)) := by
  unfold Pipeline.ΦA; rw [scopedRest1_eq]; simp only [scM1, owns_whole]; try rfl

/-- The region invariant before position `n`: before the first point the class's (the accumulator at anything);
    afterwards the accumulator at what the point before left, the other call's staging buffers at anything and the
    generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ otherScoped1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ otherScoped1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ otherScoped1 (F := F) c ∗ (∃ r, prngReg c r)) := by
  cases n with
  | zero => exact absurd rfl hz
  | succ n => rfl

/-- The proof data of pipeline 1 on core `c`: the arrays as the region finds them; after the body each input's
    buffer at its block and the output's at the accumulator plus the bias row (consulted only where the block is
    written back: the last block of a row tile); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (accAt1 V c t.val t.isLt) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (accAt1 V c t.val t.isLt) (iblk1 V c 4 t) := by dsimp only [dat1]

/-! ## What the body finds and leaves, window by window -/

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl
/-- The output is idle wherever the body's second branch is not taken, -/
theorem idleAt1_5 (t : Fin cfg1.N) (h : ¬cond1_1 (grid1.coords t)) : cfg1.idle 5 (grid1.coords t) = true := by
  show (!(k1_cond2 (grid1.coords t) == 1#1)) = true
  rw [Bool.not_eq_true', beq_eq_false_iff_ne]; exact h
/-- and is not written back there; -/
theorem noFlush1_5 (t : Fin cfg1.N) (h1 : ¬t.val % 32 = 31) : (cfg1.win 5).flush t = false :=
  Bool.eq_false_iff.mpr fun h => h1 ((flush1_5 t).mp h)
/-- it is live where the branch is taken. -/
theorem liveAt1_5 (t : Fin cfg1.N) (h : cond1_1 (grid1.coords t)) : cfg1.idle 5 (grid1.coords t) = false := by
  show (!(k1_cond2 (grid1.coords t) == 1#1)) = false
  rw [Bool.not_eq_false', beq_iff_eq]; exact h

/-- Each window's current staging memref at point `t`, spelled as the pipeline passes it, and its wholeness. -/
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4096 .f32 := win1_5.stage (cfg1.slots t 5)
abbrev hs1_5 (t : Fin cfg1.N) : (ms1_5 t).IsWhole := hstage1_5 ((cfg1.slots t 5).cast nbuf1_5)

/-- An input's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]

/-! ## The body obligation, at a generic point -/

/-- What the body is called with at point `t`: the invariant, what the core owes, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms of the two branch conditions say
    which of the three cases the point is in. At the first block of a row tile the accumulator is handed over at
    anything (at the very first point out of the class invariant, the other call's staging buffers split off;
    later at what the previous tile left) and comes back at the block's contribution over zero; at a later block
    it goes in at what the point before left and comes back one contribution further; at the last block the
    output buffer is stored too. Elsewhere the output buffer is idle and handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 32 = 0
  · have h1 : ¬t.val % 32 = 31 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t h1)]
    rw [accAt1_first V c t h0]
    by_cases hz : t.val = 0
    · rw [PhiS1_castSucc V c t, PhiS1_zero V c _ _ hz, PhiA1_eq]
      iintro ⟨⟨⟨Ha0, Ha1, Ha2, Ha3, Ha4, Ha5, HS⟩, Hg⟩, Ho, ⟨%d0, H0⟩, ⟨%d1, H1⟩, ⟨%d2, H2⟩, ⟨%d3, H3⟩, ⟨%d4, H4⟩, ⟨%d5, H5⟩⟩
      iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Ha0 Ha1 Ha2 Ha3 Ha4 Ha5 Hg]
      · isplitl [HS]; · iexact HS
        isplitr [Hg]
        · unfold otherScoped1
          isplitl [Ha0]; · iexact Ha0
          isplitl [Ha1]; · iexact Ha1
          isplitl [Ha2]; · iexact Ha2
          isplitl [Ha3]; · iexact Ha3
          isplitl [Ha4]; · iexact Ha4
          iexact Ha5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [accAt1_next V c t h0]
    rw [PhiS1_castSucc V c t, PhiS1_pos V c _ _ hz]
    by_cases h1 : t.val % 32 = 31
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5, accAt1_next V c t h0]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t h1)]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation of pipeline 1, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by
    rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  unfold otherScoped1
  iintro ⟨HS, ⟨Ha0, Ha1, Ha2, Ha3, Ha4, Ha5⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexists _; iexact HS
  iexact Hg

end Region1

end Cert.Kernel.Hand

end
-- ==== Proof.K.Launch.lean ====
/-
  The run of the whole program, at any float instance: the host reshapes, the layer-normalisation region, the host
  casts and reshapes, the feed-forward region. Between two items every unscoped buffer is held at a named valuation —
  the launch memory, then each host stretch applied, then each region's arrays at what its write-backs leave —, so
  that at the end every unscoped buffer, the result included, is read off the last valuation. The arguments are
  never written: read back through the valuations they hold the launch contents.
-/
import proofs.«133951_j65077344469262_1_alg».proof.Proof.Gen.Kernel.Launch
import proofs.«133951_j65077344469262_1_alg».proof.Proof.Gen.Kernel.Skeleton
import proofs.«133951_j65077344469262_1_alg».proof.Proof.Gen.Kernel.Points
import proofs.«133951_j65077344469262_1_alg».proof.Proof.Gen.Kernel.Regions
import proofs.«133951_j65077344469262_1_alg».proof.Proof.K.Region0
import proofs.«133951_j65077344469262_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bnd0 : Dev nD → Valuation τ sig (Elt F) := fun c b => (s₀ m ρ).mem ((c : Dev nD), b)
/-- After the first host stretch (region 0's entry). -/
abbrev bnd1 : Dev nD → Valuation τ sig (Elt F) := fun c => StableHlo.after hostOps0 (bnd0 m ρ c)
/-- The same read at the TensorCore's references. -/
abbrev ent0 : (c : Dev nD) → (b : Ref sig .tc) → Buf (Elt F) ((c : Thread nD τ).loc b) := fun c b => bnd1 m ρ c b
/-- At region 0's exit: its arrays at what the pipeline leaves, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ext0 m ρ c (Pipeline.arrRef spec0 w) :=
  (bnd2_arr m ρ c w).symm
theorem hrest0 (c : Dev nD) : ∀ b, b ∉ Finset.univ.image (Pipeline.arrRef spec0) → ext0 m ρ c b = ent0 m ρ c b :=
  fun b hb => bnd2_of_ne m ρ c b fun w e => hb (Finset.mem_image.mpr ⟨w, Finset.mem_univ _, e⟩)

/-- After the second host stretch (region 1's entry). -/
abbrev bnd3 : Dev nD → Valuation τ sig (Elt F) := fun c => StableHlo.after hostOps1 (bnd2 m ρ c)
abbrev ent1 : (c : Dev nD) → (b : Ref sig .tc) → Buf (Elt F) ((c : Thread nD τ).loc b) := fun c b => bnd3 m ρ c b
/-- At region 1's exit. -/
def bnd4 (c : Dev nD) : Valuation τ sig (Elt F) :=
  Pipeline.withArrays spec1 c (bnd3 m ρ c) fun w => (dat1 (ent1 m ρ) c).arrAt w cfg1.N
theorem bnd4_arr (c : Dev nD) (w : Fin cfg1.W) :
    bnd4 m ρ c (Proc.devRef .tc (Pipeline.arrRef spec1 w)) = (dat1 (ent1 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m ρ c b
theorem hF1 (c : Dev nD) (w : Fin cfg1.W) : (dat1 (ent1 m ρ) c).arrAt w cfg1.N = ext1 m ρ c (Pipeline.arrRef spec1 w) :=
  (bnd4_arr m ρ c w).symm
theorem hrest1 (c : Dev nD) : ∀ b, b ∉ Finset.univ.image (Pipeline.arrRef spec1) → ext1 m ρ c b = ent1 m ρ c b :=
  fun b hb => bnd4_of_ne m ρ c b fun w e => hb (Finset.mem_image.mpr ⟨w, Finset.mem_univ _, e⟩)

/-! ## The arguments end as launched -/

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := bnd4_of_ne m ρ c main_arg0 (by decide)
    _ = bnd2 m ρ c (Proc.devRef .tc main_arg0) := StableHlo.after_of_writes_sub hostOps1 _ hostOps1_writes (r := main_arg0) (by decide)
    _ = bnd1 m ρ c (Proc.devRef .tc main_arg0) := (bnd2_arr m ρ c 0).trans (((dat0 (ent0 m ρ) c).arrAt_in 0 rfl _).trans (A_eq0 (ent0 m ρ) c 0))
    _ = bnd0 m ρ c (Proc.devRef .tc main_arg0) := StableHlo.after_of_writes_sub hostOps0 _ hostOps0_writes (r := main_arg0) (by decide)
    _ = m ((c : Thread nD τ).loc main_arg0) := rfl

theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := bnd4_of_ne m ρ c main_arg1 (by decide)
    _ = bnd2 m ρ c (Proc.devRef .tc main_arg1) := StableHlo.after_of_writes_sub hostOps1 _ hostOps1_writes (r := main_arg1) (by decide)
    _ = bnd1 m ρ c (Proc.devRef .tc main_arg1) := bnd2_of_ne m ρ c main_arg1 (by decide)
    _ = bnd0 m ρ c (Proc.devRef .tc main_arg1) := StableHlo.after_of_writes_sub hostOps0 _ hostOps0_writes (r := main_arg1) (by decide)
    _ = m ((c : Thread nD τ).loc main_arg1) := rfl

theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := bnd4_of_ne m ρ c main_arg2 (by decide)
    _ = bnd2 m ρ c (Proc.devRef .tc main_arg2) := StableHlo.after_of_writes_sub hostOps1 _ hostOps1_writes (r := main_arg2) (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes (r := main_arg2) (by decide)
    _ = m ((c : Thread nD τ).loc main_arg2) := rfl

theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := bnd4_of_ne m ρ c main_arg3 (by decide)
    _ = bnd2 m ρ c (Proc.devRef .tc main_arg3) := StableHlo.after_of_writes_sub hostOps1 _ hostOps1_writes (r := main_arg3) (by decide)
    _ = bnd1 m ρ c (Proc.devRef .tc main_arg3) := bnd2_of_ne m ρ c main_arg3 (by decide)
    _ = bnd0 m ρ c (Proc.devRef .tc main_arg3) := StableHlo.after_of_writes_sub hostOps0 _ hostOps0_writes (r := main_arg3) (by decide)
    _ = m ((c : Thread nD τ).loc main_arg3) := rfl

theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := bnd4_of_ne m ρ c main_arg4 (by decide)
    _ = bnd2 m ρ c (Proc.devRef .tc main_arg4) := StableHlo.after_of_writes_sub hostOps1 _ hostOps1_writes (r := main_arg4) (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes (r := main_arg4) (by decide)
    _ = m ((c : Thread nD τ).loc main_arg4) := rfl

theorem bnd4_main_arg5 (c : Dev nD) : bnd4 m ρ c (Proc.devRef .tc main_arg5) = m ((c : Thread nD τ).loc main_arg5) :=
  calc bnd4 m ρ c (Proc.devRef .tc main_arg5)
    _ = bnd3 m ρ c (Proc.devRef .tc main_arg5) := bnd4_of_ne m ρ c main_arg5 (by decide)
    _ = bnd2 m ρ c (Proc.devRef .tc main_arg5) := StableHlo.after_of_writes_sub hostOps1 _ hostOps1_writes (r := main_arg5) (by decide)
    _ = bnd1 m ρ c (Proc.devRef .tc main_arg5) := bnd2_of_ne m ρ c main_arg5 (by decide)
    _ = bnd0 m ρ c (Proc.devRef .tc main_arg5) := StableHlo.after_of_writes_sub hostOps0 _ hostOps0_writes (r := main_arg5) (by decide)
    _ = m ((c : Thread nD τ).loc main_arg5) := rfl

theorem bnd4_main_arg6 (c : Dev nD) : bnd4 m ρ c (Proc.devRef .tc main_arg6) = m ((c : Thread nD τ).loc main_arg6) :=
  calc bnd4 m ρ c (Proc.devRef .tc main_arg6)
    _ = bnd3 m ρ c (Proc.devRef .tc main_arg6) := bnd4_of_ne m ρ c main_arg6 (by decide)
    _ = bnd2 m ρ c (Proc.devRef .tc main_arg6) := StableHlo.after_of_writes_sub hostOps1 _ hostOps1_writes (r := main_arg6) (by decide)
    _ = bnd1 m ρ c (Proc.devRef .tc main_arg6) := bnd2_of_ne m ρ c main_arg6 (by decide)
    _ = bnd0 m ρ c (Proc.devRef .tc main_arg6) := StableHlo.after_of_writes_sub hostOps0 _ hostOps0_writes (r := main_arg6) (by decide)
    _ = m ((c : Thread nD τ).loc main_arg6) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (ent0 m ρ) c
  | ⟨1, _⟩ => fun c => dat1 (ent1 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- Region 0 over the thread state: entered from every unscoped buffer at `bnd1`, left at `bnd2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ LH lvH 0 fun _ _ => rfl
  pre c := iprop(StableHlo.held (c : Thread nD τ) (Pipeline.ucRefs τ sig) (bnd1 m ρ c) ∗ RH c)
  post c := iprop(StableHlo.held (c : Thread nD τ) (Pipeline.ucRefs τ sig) (bnd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `bnd3`, left at `bnd4`. Its invariant starts
    as the class's and ends giving the class's back, the accumulator's contents forgotten. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ LH lvH 1 fun _ _ => rfl
  pre c := iprop(StableHlo.held (c : Thread nD τ) (Pipeline.ucRefs τ sig) (bnd3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (ent1 m ρ) c).Φ 0 from rfl]
    have hΦ : (iprop(Pipeline.scopedRest (Ix := Unit) (Name := ℕ) (U := UR sig nD τ) (Lvl := ℕ) (Val := Elt F) spec1 c ∗ ∃ r, prngReg c r) : sProp 𝕄)
        ⊢ Pipeline.ΦA spec1 c := by unfold Pipeline.ΦA; exact .rfl
    iintro ⟨Hp, -, Hr⟩
    iapply (hΦ.trans (hin1 (ent1 m ρ) c))
    isplitl [Hr]; · iexact Hr
    iexact Hp
  hout c := by
    rw [Pipeline.ownSems0_none, show (pdats m ρ 1 c).Φ (Fin.last _) = (dat1 (ent1 m ρ) c).Φ (Fin.last cfg1.N) from rfl]
    have hΦ : (Pipeline.ΦA spec1 c : sProp 𝕄)
        ⊢ iprop(Pipeline.scopedRest (Ix := Unit) (Name := ℕ) (U := UR sig nD τ) (Lvl := ℕ) (Val := Elt F) spec1 c ∗ ∃ r, prngReg c r) := by
      unfold Pipeline.ΦA; exact .rfl
    have hsw : (iprop(Pipeline.scopedRest (Ix := Unit) (Name := ℕ) (U := UR sig nD τ) (Lvl := ℕ) (Val := Elt F) spec1 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec1 c) := by
      iintro ⟨Hr, Hp⟩
      isplitl [Hp]; · iexact Hp
      isplitr; · iempintro
      iexact Hr
    exact ((hout1 (ent1 m ρ) c).trans hΦ).trans hsw
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdats m ρ) () defs₀ 𝒱H LH lvH) :=
  [ .host (hsegH hostOps0 hostOps0_sub hostOps0_fresh (bnd0 m ρ)),
    .region (reg0 m ρ),
    .host (hsegH hostOps1 hostOps1_sub hostOps1_fresh (bnd2 m ρ)),
    .region (reg1 m ρ) ]
theorem main_runH (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun _ h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c)⟩) (run_all m ρ)

/-- The result buffer after the run: what the second region's write-backs leave in its output array. -/
theorem bnd4_result (c : Dev nD) : bnd4 m ρ c (Proc.devRef .tc main_v7) = (dat1 (ent1 m ρ) c).arrAt 5 cfg1.N :=
  bnd4_arr m ρ c 5

end Cert.Kernel.Hand

end
-- ==== Proof.KI.Region0.lean ====
/-
  The first pallas_call (the layer normalisation) as a pipeline region, at any float instance: what each of its
  windows holds at a grid point, what the body leaves in the output window's buffer — the normalised rows, the
  body's one stored value as a function of the three input blocks —, the proof data of the pipeline and the body
  obligation at every point. The contents `V` the region is entered from are a parameter.
-/
import proofs.«133951_j65077344469262_1_alg».proof.Proof.Gen.KernelIdeal.Launch
import proofs.«133951_j65077344469262_1_alg».proof.Proof.Gen.KernelIdeal.Skeleton
import proofs.«133951_j65077344469262_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-shape rectangle at zero offsets covers every index of the shape (stated over an
    abstract shape, so that no membership in a rectangle of large extents is ever evaluated). -/
private theorem cover_whole {Val : EltTy → Type} {S : Shape} {e : EltTy} {off : Fin S.rank → Nat} (h : off = fun _ => 0)
    (inb : ∀ a, off a + S.size a ≤ S.size a) (w : S.Idx → Val e) (y : S.Idx) :
    ∃ pc ∈ ([⟨Rect.unit off S.size inb, w⟩] : List (View.Piece Val S e)), y ∈ pc.1.set :=
  ⟨_, List.mem_singleton_self _, View.mem_set_unit_zero h inb y⟩

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
/-- The layer-normalisation body on whole staging memrefs: the three inputs are kept, the output buffer ends at the
    body's stored value of them. -/
theorem run0 (c : Dev nD) (E : Set ℕ) (i : grid0.Coords)
    (arg1 : Memref sig .tc .vmem S256x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S256x4096 .bf16) (harg4 : arg4.IsWhole)
    (x1 : Vec F S256x4096 .f32) (x2 x3 : Vec F S1x4096 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k0_pay1 x1 x2 x3)) -∗ K ⟨⟩))
      ⊢ wp frame (wpE (defs₀ (F := F)) Variants.none c none) E (cc0__ln_kernel i arg1 harg1 arg2 harg2 arg3 harg3 arg4 harg4) K := by
  simp only [cc0__ln_kernel_eq_skeleton]; unfold cc0__ln_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the one store covers the buffer, so the buffer reads as the store's payload; each load is of the whole buffer
  have hz : (![0, 0] : Fin 2 → Nat) = fun _ => 0 := by funext a; fin_cases a <;> rfl
  refine (View.read_writes_eq_canon _ _ _ (cover_whole (S := S256x4096) hz inb_S256x4096_S256x4096_0_0 _)).trans ?_
  rw [View.canon_unit_zero hz]
  simp only [View.readAt_eq_ld, View.ld_unit_zero (S := S256x4096) hz, View.ld_unit_zero (S := S1x4096) hz]

/-- The proof data of pipeline 0 on core `c`: the arrays as the region finds them; after the body each input's buffer
    at its block and the output's at the normalised block; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## What the body finds in the input windows' buffers

An input window of this pipeline is uncut and never idle and the body leaves its buffer as found, so at every point its
current buffer holds the block of the array there, whether the point fetched it or not: a point that does not fetch has
the block index of the point before. -/

private theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

private theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

private theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The body at a point, the windows written out: the three inputs' buffers hold their blocks, so `run0` runs the body to
    the output's buffer at the normalised block; the invariant and what the core owes are the same at the next point and
    pass through unread. -/
private theorem body0_at (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of pipeline 0, at every point. -/
theorem body_obligation0 (c : Dev nD) : BodyObligation (dat0 (F := F) V c) (defs₀ (F := F)) Variants.none () Set.univ := fun t => by
  rw [bigSep_W0, bigSep_W0]
  exact body0_at V c t

end Region0

end Cert.KernelIdeal.Hand

end
-- ==== Proof.KI.Body1.lean ====
/-
  The body of the second pallas_call on whole staging memrefs, at any float instance, in each of the three cases
  its two branches meet on the grid: the first block of a row tile (the accumulator is reset, then added to), a
  middle block (added to), the last block (added to, then the accumulator plus the bias row is stored to the
  output buffer). The inputs are kept; the accumulator ends at the block's contribution over what it held (or over
  the stored zero); the output buffer is untouched except in the last case.
-/
import proofs.«133951_j65077344469262_1_alg».proof.Proof.Gen.KernelIdeal.Launch
import proofs.«133951_j65077344469262_1_alg».proof.Proof.Gen.KernelIdeal.Skeleton
import proofs.«133951_j65077344469262_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (reset the accumulator) is taken where the inner grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The second branch (write the output block) is taken where the inner grid coordinate is 31. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-- The zero offsets of a rank-2 rectangle, as the constant function. -/
private theorem hz2 : (![0, 0] : Fin 2 → Nat) = fun _ => 0 := funext fun a => by fin_cases a <;> rfl

/-- A buffer read back after a LAST store through the whole-shape rectangle reads that store's payload, whatever the
    earlier stores and the prior contents were: the one piece covers every index. -/
private theorem read_writes_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-- A load through the whole-shape rectangle of a whole memref holding `X` reads `X`. -/
private theorem readAt_whole {S : Shape} {e : EltTy} (m : Memref sig .tc .vmem S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

set_option maxHeartbeats 1000000 in
/-- First block of a row tile: the accumulator, at anything, ends at the block's contribution over the stored zero. -/
theorem run1_A (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : cond1_0 i) (hc1 : ¬cond1_1 i) (x2 : Vec F S512x4096 .bf16) (x3 : Vec F S4096x512 .bf16) (x4 : Vec F S1x512 .f32) (x5 : Vec F S512x4096 .bf16) (x6 : Vec F S1x4096 .f32) (d7 : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ s, owns (c : Thread nD τ) arg8 fullShare s)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7
            ∗ owns (c : Thread nD τ) arg8 fullShare (k1_pay3 x2 x3 x4 x5 (k1_pay2 (F := F)))) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%s, %f8, -, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  rotate_left
  · iexact H8
  · ipureintro
    sl_unfold_words
    rw [read_writes_whole _ _ hz2, readAt_whole arg2 harg2 hz2, readAt_whole arg3 harg3 hz2, readAt_whole arg4 harg4 hz2,
      readAt_whole arg5 harg5 hz2, View.readCov_unit_zero (S := S512x4096) _ hz2]

set_option maxHeartbeats 1000000 in
/-- A middle block: the accumulator ends at the block's contribution over what it held. -/
theorem run1_B (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : ¬cond1_0 i) (hc1 : ¬cond1_1 i) (x2 : Vec F S512x4096 .bf16) (x3 : Vec F S4096x512 .bf16) (x4 : Vec F S1x512 .f32) (x5 : Vec F S512x4096 .bf16) (x6 : Vec F S1x4096 .f32) (d7 : Vec F S512x4096 .f32) (s : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7
            ∗ owns (c : Thread nD τ) arg8 fullShare (k1_pay3 x2 x3 x4 x5 s)) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr
  rotate_left
  · iexact H8
  · ipureintro
    rw [read_writes_whole _ _ hz2, readAt_whole arg2 harg2 hz2, readAt_whole arg3 harg3 hz2, readAt_whole arg4 harg4 hz2,
      readAt_whole arg5 harg5 hz2, readAt_whole arg8 harg8 hz2]

set_option maxHeartbeats 1000000 in
/-- The last block: the accumulator as in a middle block, and the output buffer ends at the new accumulator plus the bias row. -/
theorem run1_C (c : Dev nD) (E : Set ℕ) (i : grid1.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .f32) (harg8 : arg8.IsWhole)
    (hc0 : ¬cond1_0 i) (hc1 : cond1_1 i) (x2 : Vec F S512x4096 .bf16) (x3 : Vec F S4096x512 .bf16) (x4 : Vec F S1x512 .f32) (x5 : Vec F S512x4096 .bf16) (x6 : Vec F S1x4096 .f32) (s : Vec F S512x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k1_pay1 (k1_pay3 x2 x3 x4 x5 s) x6)
            ∗ owns (c : Thread nD τ) arg8 fullShare (k1_pay3 x2 x3 x4 x5 s)) -∗ K ⟨⟩))
      ⊢ wp frame (wpE (defs₀ (F := F)) Variants.none c none) E (cc1__ffn_kernel i arg2 harg2 arg3 harg3 arg4 harg4 arg5 harg5 arg6 harg6 arg7 harg7 arg8 harg8) K := by
  simp only [cc1__ffn_kernel_eq_skeleton]; unfold cc1__ffn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    · ipureintro
      sl_unfold_words
      rw [read_writes_whole _ _ hz2, readAt_whole arg6 harg6 hz2, View.readCov_unit_zero (S := S512x4096) _ hz2,
        readAt_whole arg2 harg2 hz2, readAt_whole arg3 harg3 hz2, readAt_whole arg4 harg4 hz2,
        readAt_whole arg5 harg5 hz2, readAt_whole arg8 harg8 hz2]
  iexists _; isplitr
  rotate_left
  · iexact H8
  · ipureintro
    sl_unfold_words
    rw [read_writes_whole _ _ hz2, readAt_whole arg2 harg2 hz2, readAt_whole arg3 harg3 hz2, readAt_whole arg4 harg4 hz2,
      readAt_whole arg5 harg5 hz2, readAt_whole arg8 harg8 hz2]

end Cert.KernelIdeal.Hand

end
-- ==== Proof.KI.Region1.lean ====
/-
  The second pallas_call (first matrix product, GELU, second matrix product accumulated over the 32 blocks of the
  hidden axis) as a pipeline region, at any float instance. The kernel keeps a 512 x 4096 accumulator in a scratch
  buffer across grid points: reset at the first block of every row tile, added to at every block, and written out
  (plus the bias) at the last block. What the accumulator holds after each point is a recursion on the point; the
  region's invariant carries the scratch at exactly that value. The contents `V` the region is entered from are a
  parameter.
-/
import proofs.«133951_j65077344469262_1_alg».proof.Proof.Gen.KernelIdeal.Launch
import proofs.«133951_j65077344469262_1_alg».proof.Proof.Gen.KernelIdeal.Skeleton
import proofs.«133951_j65077344469262_1_alg».proof.Proof.Gen.KernelIdeal.Points
import proofs.«133951_j65077344469262_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator as a memref. -/
abbrev scM1 : Memref sig .tc .vmem S512x4096 .f32 := Memref.whole cc1_scratch0

/-- THE ACCUMULATION: what the scratch accumulator holds after the body at position `n`: at the first block of a
    row tile the block's contribution added to the zero the body has just stored, elsewhere added to what the
    point before left. -/
def accAt1 (c : Dev nD) : (n : ℕ) → n < cfg1.N → Vec F S512x4096 .f32
  | 0, hn => k1_pay3 (iblk1 V c 0 ⟨0, hn⟩) (iblk1 V c 1 ⟨0, hn⟩) (iblk1 V c 2 ⟨0, hn⟩) (iblk1 V c 3 ⟨0, hn⟩) (k1_pay2 (F := F))
  | n + 1, hn =>
    if (n + 1) % 32 = 0 then
      k1_pay3 (iblk1 V c 0 ⟨n + 1, hn⟩) (iblk1 V c 1 ⟨n + 1, hn⟩) (iblk1 V c 2 ⟨n + 1, hn⟩) (iblk1 V c 3 ⟨n + 1, hn⟩) (k1_pay2 (F := F))
    else
      k1_pay3 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

/-- At the first block of a row tile: the block's contribution over the stored zero. -/
theorem accAt1_first (c : Dev nD) (t : Fin cfg1.N) (h0 : t.val % 32 = 0) :
    accAt1 V c t.val t.isLt = k1_pay3 (iblk1 V c 0 t) (iblk1 V c 1 t) (iblk1 V c 2 t) (iblk1 V c 3 t) (k1_pay2 (F := F)) := by
  obtain ⟨n, hn⟩ := t
  cases n with
  | zero => rfl
  | succ n => exact (if_pos h0).trans rfl

/-- At a later block: the block's contribution over what the point before left. -/
theorem accAt1_next (c : Dev nD) (t : Fin cfg1.N) (h0 : ¬ t.val % 32 = 0) :
    accAt1 V c t.val t.isLt = k1_pay3 (iblk1 V c 0 t) (iblk1 V c 1 t) (iblk1 V c 2 t) (iblk1 V c 3 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The scoped buffers of the OTHER pallas_call (its six staging buffers), each whole at some contents: they ride
    through this region untouched. -/
def otherScoped1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant of this region, with the scratch accumulator named: the other call's staging buffers,
    the accumulator at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM1 fullShare d)) ∗ (∃ r, prngReg c r)) := by
  unfold Pipeline.ΦA; rw [scopedRest1_eq]; simp only [scM1, owns_whole]; try rfl

/-- The region invariant before position `n`: before the first point the class's (the accumulator at anything);
    afterwards the accumulator at what the point before left, the other call's staging buffers at anything and the
    generator register at some state. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ otherScoped1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn) ∗ otherScoped1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega)) ∗ otherScoped1 (F := F) c ∗ (∃ r, prngReg c r)) := by
  cases n with
  | zero => exact absurd rfl hz
  | succ n => rfl

/-- The proof data of pipeline 1 on core `c`: the arrays as the region finds them; after the body each input's
    buffer at its block and the output's at the accumulator plus the bias row (consulted only where the block is
    written back: the last block of a row tile); the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (accAt1 V c t.val t.isLt) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (accAt1 V c t.val t.isLt) (iblk1 V c 4 t) := by dsimp only [dat1]

/-! ## What the body finds and leaves, window by window -/

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl
/-- The output is idle wherever the body's second branch is not taken, -/
theorem idleAt1_5 (t : Fin cfg1.N) (h : ¬cond1_1 (grid1.coords t)) : cfg1.idle 5 (grid1.coords t) = true := by
  show (!(k1_cond2 (grid1.coords t) == 1#1)) = true
  rw [Bool.not_eq_true', beq_eq_false_iff_ne]; exact h
/-- and is not written back there; -/
theorem noFlush1_5 (t : Fin cfg1.N) (h1 : ¬t.val % 32 = 31) : (cfg1.win 5).flush t = false :=
  Bool.eq_false_iff.mpr fun h => h1 ((flush1_5 t).mp h)
/-- it is live where the branch is taken. -/
theorem liveAt1_5 (t : Fin cfg1.N) (h : cond1_1 (grid1.coords t)) : cfg1.idle 5 (grid1.coords t) = false := by
  show (!(k1_cond2 (grid1.coords t) == 1#1)) = false
  rw [Bool.not_eq_false', beq_iff_eq]; exact h

/-- Each window's current staging memref at point `t`, spelled as the pipeline passes it, and its wholeness. -/
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4096 .f32 := win1_5.stage (cfg1.slots t 5)
abbrev hs1_5 (t : Fin cfg1.N) : (ms1_5 t).IsWhole := hstage1_5 ((cfg1.slots t 5).cast nbuf1_5)

/-- An input's buffer is handed back at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]

/-! ## The body obligation, at a generic point -/

/-- What the body is called with at point `t`: the invariant, what the core owes, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the closed forms of the two branch conditions say
    which of the three cases the point is in. At the first block of a row tile the accumulator is handed over at
    anything (at the very first point out of the class invariant, the other call's staging buffers split off;
    later at what the previous tile left) and comes back at the block's contribution over zero; at a later block
    it goes in at what the point before left and comes back one contribution further; at the last block the
    output buffer is stored too. Elsewhere the output buffer is idle and handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 32 = 0
  · have h1 : ¬t.val % 32 = 31 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t h1)]
    rw [accAt1_first V c t h0]
    by_cases hz : t.val = 0
    · rw [PhiS1_castSucc V c t, PhiS1_zero V c _ _ hz, PhiA1_eq]
      iintro ⟨⟨⟨Ha0, Ha1, Ha2, Ha3, Ha4, Ha5, HS⟩, Hg⟩, Ho, ⟨%d0, H0⟩, ⟨%d1, H1⟩, ⟨%d2, H2⟩, ⟨%d3, H3⟩, ⟨%d4, H4⟩, ⟨%d5, H5⟩⟩
      iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Ha0 Ha1 Ha2 Ha3 Ha4 Ha5 Hg]
      · isplitl [HS]; · iexact HS
        isplitr [Hg]
        · unfold otherScoped1
          isplitl [Ha0]; · iexact Ha0
          isplitl [Ha1]; · iexact Ha1
          isplitl [Ha2]; · iexact Ha2
          isplitl [Ha3]; · iexact Ha3
          isplitl [Ha4]; · iexact Ha4
          iexact Ha5
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [accAt1_next V c t h0]
    rw [PhiS1_castSucc V c t, PhiS1_pos V c _ _ hz]
    by_cases h1 : t.val % 32 = 31
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5, accAt1_next V c t h0]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t h1)]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1
        (iblk1 V c 0 t) (iblk1 V c 1 t) (iblk1 V c 2 t) (iblk1 V c 3 t) (iblk1 V c 4 t) ((dat1 V c).before 5 t d5) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation of pipeline 1, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by
    rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  unfold otherScoped1
  iintro ⟨HS, ⟨Ha0, Ha1, Ha2, Ha3, Ha4, Ha5⟩, Hg⟩
  isplitr [Hg]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iexists _; iexact HS
  iexact Hg

end Region1

end Cert.KernelIdeal.Hand

end
-- ==== Proof.KI.Launch.lean ====
/-
  The run of the whole program, at any float instance: the host reshapes, the layer-normalisation region, the host
  casts and reshapes, the feed-forward region. Between two items every unscoped buffer is held at a named valuation —
  the launch memory, then each host stretch applied, then each region's arrays at what its write-backs leave —, so
  that at the end every unscoped buffer, the result included, is read off the last valuation. The arguments are
  never written: read back through the valuations they hold the launch contents.
-/
import proofs.«133951_j65077344469262_1_alg».proof.Proof.Gen.KernelIdeal.Launch
import proofs.«133951_j65077344469262_1_alg».proof.Proof.Gen.KernelIdeal.Skeleton
import proofs.«133951_j65077344469262_1_alg».proof.Proof.Gen.KernelIdeal.Points
import proofs.«133951_j65077344469262_1_alg».proof.Proof.Gen.KernelIdeal.Regions
import proofs.«133951_j65077344469262_1_alg».proof.Proof.KI.Region0
import proofs.«133951_j65077344469262_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev bnd0 : Dev nD → Valuation τ sig (Elt F) := fun c b => (s₀ m ρ).mem ((c : Dev nD), b)
/-- After the first host stretch (region 0's entry). -/
abbrev bnd1 : Dev nD → Valuation τ sig (Elt F) := fun c => StableHlo.after hostOps0 (bnd0 m ρ c)
/-- The same read at the TensorCore's references. -/
abbrev ent0 : (c : Dev nD) → (b : Ref sig .tc) → Buf (Elt F) ((c : Thread nD τ).loc b) := fun c b => bnd1 m ρ c b
/-- At region 0's exit: its arrays at what the pipeline leaves, every other buffer as entered. -/
def bnd2 (c : Dev nD) : Valuation τ sig (Elt F) :=
  Pipeline.withArrays spec0 c (bnd1 m ρ c) fun w => (dat0 (ent0 m ρ) c).arrAt w cfg0.N
theorem bnd2_arr (c : Dev nD) (w : Fin cfg0.W) :
    bnd2 m ρ c (Proc.devRef .tc (Pipeline.arrRef spec0 w)) = (dat0 (ent0 m ρ) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m ρ c (Proc.devRef .tc b) = bnd1 m ρ c (Proc.devRef .tc b) := by
  unfold bnd2; exact Pipeline.withArrays_of_ne spec0 c _ _ b hb
abbrev ext0 : (c : Dev nD) → (b : Ref sig .tc) → Buf (Elt F) ((c : Thread nD τ).loc b) := fun c b => bnd2 m ρ c b
theorem hF0 (c : Dev nD) (w : Fin cfg0.W) : (dat0 (ent0 m ρ) c).arrAt w cfg0.N = ext0 m ρ c (Pipeline.arrRef spec0 w) :=
  (bnd2_arr m ρ c w).symm
theorem hrest0 (c : Dev nD) : ∀ b, b ∉ Finset.univ.image (Pipeline.arrRef spec0) → ext0 m ρ c b = ent0 m ρ c b :=
  fun b hb => bnd2_of_ne m ρ c b fun w e => hb (Finset.mem_image.mpr ⟨w, Finset.mem_univ _, e⟩)

/-- After the second host stretch (region 1's entry). -/
abbrev bnd3 : Dev nD → Valuation τ sig (Elt F) := fun c => StableHlo.after hostOps1 (bnd2 m ρ c)
abbrev ent1 : (c : Dev nD) → (b : Ref sig .tc) → Buf (Elt F) ((c : Thread nD τ).loc b) := fun c b => bnd3 m ρ c b
/-- At region 1's exit. -/
def bnd4 (c : Dev nD) : Valuation τ sig (Elt F) :=
  Pipeline.withArrays spec1 c (bnd3 m ρ c) fun w => (dat1 (ent1 m ρ) c).arrAt w cfg1.N
theorem bnd4_arr (c : Dev nD) (w : Fin cfg1.W) :
    bnd4 m ρ c (Proc.devRef .tc (Pipeline.arrRef spec1 w)) = (dat1 (ent1 m ρ) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m ρ c (Proc.devRef .tc b) = bnd3 m ρ c (Proc.devRef .tc b) := by
  unfold bnd4; exact Pipeline.withArrays_of_ne spec1 c _ _ b hb
abbrev ext1 : (c : Dev nD) → (b : Ref sig .tc) → Buf (Elt F) ((c : Thread nD τ).loc b) := fun c b => bnd4 m ρ c b
theorem hF1 (c : Dev nD) (w : Fin cfg1.W) : (dat1 (ent1 m ρ) c).arrAt w cfg1.N = ext1 m ρ c (Pipeline.arrRef spec1 w) :=
  (bnd4_arr m ρ c w).symm
theorem hrest1 (c : Dev nD) : ∀ b, b ∉ Finset.univ.image (Pipeline.arrRef spec1) → ext1 m ρ c b = ent1 m ρ c b :=
  fun b hb => bnd4_of_ne m ρ c b fun w e => hb (Finset.mem_image.mpr ⟨w, Finset.mem_univ _, e⟩)

/-! ## The arguments end as launched -/

theorem bnd4_main_arg0 (c : Dev nD) : bnd4 m ρ c (Proc.devRef .tc main_arg0) = m ((c : Thread nD τ).loc main_arg0) :=
  calc bnd4 m ρ c (Proc.devRef .tc main_arg0)
    _ = bnd3 m ρ c (Proc.devRef .tc main_arg0) := bnd4_of_ne m ρ c main_arg0 (by decide)
    _ = bnd2 m ρ c (Proc.devRef .tc main_arg0) := StableHlo.after_of_writes_sub hostOps1 _ hostOps1_writes (r := main_arg0) (by decide)
    _ = bnd1 m ρ c (Proc.devRef .tc main_arg0) := (bnd2_arr m ρ c 0).trans (((dat0 (ent0 m ρ) c).arrAt_in 0 rfl _).trans (A_eq0 (ent0 m ρ) c 0))
    _ = bnd0 m ρ c (Proc.devRef .tc main_arg0) := StableHlo.after_of_writes_sub hostOps0 _ hostOps0_writes (r := main_arg0) (by decide)
    _ = m ((c : Thread nD τ).loc main_arg0) := rfl

theorem bnd4_main_arg1 (c : Dev nD) : bnd4 m ρ c (Proc.devRef .tc main_arg1) = m ((c : Thread nD τ).loc main_arg1) :=
  calc bnd4 m ρ c (Proc.devRef .tc main_arg1)
    _ = bnd3 m ρ c (Proc.devRef .tc main_arg1) := bnd4_of_ne m ρ c main_arg1 (by decide)
    _ = bnd2 m ρ c (Proc.devRef .tc main_arg1) := StableHlo.after_of_writes_sub hostOps1 _ hostOps1_writes (r := main_arg1) (by decide)
    _ = bnd1 m ρ c (Proc.devRef .tc main_arg1) := bnd2_of_ne m ρ c main_arg1 (by decide)
    _ = bnd0 m ρ c (Proc.devRef .tc main_arg1) := StableHlo.after_of_writes_sub hostOps0 _ hostOps0_writes (r := main_arg1) (by decide)
    _ = m ((c : Thread nD τ).loc main_arg1) := rfl

theorem bnd4_main_arg2 (c : Dev nD) : bnd4 m ρ c (Proc.devRef .tc main_arg2) = m ((c : Thread nD τ).loc main_arg2) :=
  calc bnd4 m ρ c (Proc.devRef .tc main_arg2)
    _ = bnd3 m ρ c (Proc.devRef .tc main_arg2) := bnd4_of_ne m ρ c main_arg2 (by decide)
    _ = bnd2 m ρ c (Proc.devRef .tc main_arg2) := StableHlo.after_of_writes_sub hostOps1 _ hostOps1_writes (r := main_arg2) (by decide)
    _ = bnd1 m ρ c (Proc.devRef .tc main_arg2) := bnd2_of_ne m ρ c main_arg2 (by decide)
    _ = bnd0 m ρ c (Proc.devRef .tc main_arg2) := StableHlo.after_of_writes_sub hostOps0 _ hostOps0_writes (r := main_arg2) (by decide)
    _ = m ((c : Thread nD τ).loc main_arg2) := rfl

theorem bnd4_main_arg3 (c : Dev nD) : bnd4 m ρ c (Proc.devRef .tc main_arg3) = m ((c : Thread nD τ).loc main_arg3) :=
  calc bnd4 m ρ c (Proc.devRef .tc main_arg3)
    _ = bnd3 m ρ c (Proc.devRef .tc main_arg3) := bnd4_of_ne m ρ c main_arg3 (by decide)
    _ = bnd2 m ρ c (Proc.devRef .tc main_arg3) := StableHlo.after_of_writes_sub hostOps1 _ hostOps1_writes (r := main_arg3) (by decide)
    _ = bnd1 m ρ c (Proc.devRef .tc main_arg3) := bnd2_of_ne m ρ c main_arg3 (by decide)
    _ = bnd0 m ρ c (Proc.devRef .tc main_arg3) := StableHlo.after_of_writes_sub hostOps0 _ hostOps0_writes (r := main_arg3) (by decide)
    _ = m ((c : Thread nD τ).loc main_arg3) := rfl

theorem bnd4_main_arg4 (c : Dev nD) : bnd4 m ρ c (Proc.devRef .tc main_arg4) = m ((c : Thread nD τ).loc main_arg4) :=
  calc bnd4 m ρ c (Proc.devRef .tc main_arg4)
    _ = bnd3 m ρ c (Proc.devRef .tc main_arg4) := bnd4_of_ne m ρ c main_arg4 (by decide)
    _ = bnd2 m ρ c (Proc.devRef .tc main_arg4) := StableHlo.after_of_writes_sub hostOps1 _ hostOps1_writes (r := main_arg4) (by decide)
    _ = bnd1 m ρ c (Proc.devRef .tc main_arg4) := bnd2_of_ne m ρ c main_arg4 (by decide)
    _ = bnd0 m ρ c (Proc.devRef .tc main_arg4) := StableHlo.after_of_writes_sub hostOps0 _ hostOps0_writes (r := main_arg4) (by decide)
    _ = m ((c : Thread nD τ).loc main_arg4) := rfl

theorem bnd4_main_arg5 (c : Dev nD) : bnd4 m ρ c (Proc.devRef .tc main_arg5) = m ((c : Thread nD τ).loc main_arg5) :=
  calc bnd4 m ρ c (Proc.devRef .tc main_arg5)
    _ = bnd3 m ρ c (Proc.devRef .tc main_arg5) := bnd4_of_ne m ρ c main_arg5 (by decide)
    _ = bnd2 m ρ c (Proc.devRef .tc main_arg5) := StableHlo.after_of_writes_sub hostOps1 _ hostOps1_writes (r := main_arg5) (by decide)
    _ = bnd1 m ρ c (Proc.devRef .tc main_arg5) := bnd2_of_ne m ρ c main_arg5 (by decide)
    _ = bnd0 m ρ c (Proc.devRef .tc main_arg5) := StableHlo.after_of_writes_sub hostOps0 _ hostOps0_writes (r := main_arg5) (by decide)
    _ = m ((c : Thread nD τ).loc main_arg5) := rfl

theorem bnd4_main_arg6 (c : Dev nD) : bnd4 m ρ c (Proc.devRef .tc main_arg6) = m ((c : Thread nD τ).loc main_arg6) :=
  calc bnd4 m ρ c (Proc.devRef .tc main_arg6)
    _ = bnd3 m ρ c (Proc.devRef .tc main_arg6) := bnd4_of_ne m ρ c main_arg6 (by decide)
    _ = bnd2 m ρ c (Proc.devRef .tc main_arg6) := StableHlo.after_of_writes_sub hostOps1 _ hostOps1_writes (r := main_arg6) (by decide)
    _ = bnd1 m ρ c (Proc.devRef .tc main_arg6) := bnd2_of_ne m ρ c main_arg6 (by decide)
    _ = bnd0 m ρ c (Proc.devRef .tc main_arg6) := StableHlo.after_of_writes_sub hostOps0 _ hostOps0_writes (r := main_arg6) (by decide)
    _ = m ((c : Thread nD τ).loc main_arg6) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (ent0 m ρ) c
  | ⟨1, _⟩ => fun c => dat1 (ent1 m ρ) c
abbrev 𝒱H : Variants := Variants.none
abbrev LH : GSem nD τ sig → Finset Unit := fun _ => ∅
abbrev lvH : GSem nD τ sig → Unit → ℕ := fun _ _ => 0
/-- What rides beside the buffers through every item: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (bnd4 m ρ c) ∗ ∃ r, prngReg c r)

/-! ## The regions as segments -/

set_option backward.isDefEq.respectTransparency.types false in
/-- Region 0 over the thread state: entered from every unscoped buffer at `bnd1`, left at `bnd2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ LH lvH 0 fun _ _ => rfl
  pre c := iprop(StableHlo.held (c : Thread nD τ) (Pipeline.ucRefs τ sig) (bnd1 m ρ c) ∗ RH c)
  post c := iprop(StableHlo.held (c : Thread nD τ) (Pipeline.ucRefs τ sig) (bnd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `bnd3`, left at `bnd4`. Its invariant starts
    as the class's and ends giving the class's back, the accumulator's contents forgotten. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ LH lvH 1 fun _ _ => rfl
  pre c := iprop(StableHlo.held (c : Thread nD τ) (Pipeline.ucRefs τ sig) (bnd3 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (ent1 m ρ) c).Φ 0 from rfl]
    have hΦ : (iprop(Pipeline.scopedRest (Ix := Unit) (Name := ℕ) (U := UR sig nD τ) (Lvl := ℕ) (Val := Elt F) spec1 c ∗ ∃ r, prngReg c r) : sProp 𝕄)
        ⊢ Pipeline.ΦA spec1 c := by unfold Pipeline.ΦA; exact .rfl
    iintro ⟨Hp, -, Hr⟩
    iapply (hΦ.trans (hin1 (ent1 m ρ) c))
    isplitl [Hr]; · iexact Hr
    iexact Hp
  hout c := by
    rw [Pipeline.ownSems0_none, show (pdats m ρ 1 c).Φ (Fin.last _) = (dat1 (ent1 m ρ) c).Φ (Fin.last cfg1.N) from rfl]
    have hΦ : (Pipeline.ΦA spec1 c : sProp 𝕄)
        ⊢ iprop(Pipeline.scopedRest (Ix := Unit) (Name := ℕ) (U := UR sig nD τ) (Lvl := ℕ) (Val := Elt F) spec1 c ∗ ∃ r, prngReg c r) := by
      unfold Pipeline.ΦA; exact .rfl
    have hsw : (iprop(Pipeline.scopedRest (Ix := Unit) (Name := ℕ) (U := UR sig nD τ) (Lvl := ℕ) (Val := Elt F) spec1 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec1 c) := by
      iintro ⟨Hr, Hp⟩
      isplitl [Hp]; · iexact Hp
      isplitr; · iempintro
      iexact Hr
    exact ((hout1 (ent1 m ρ) c).trans hΦ).trans hsw
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdats m ρ) () defs₀ 𝒱H LH lvH) :=
  [ .host (hsegH hostOps0 hostOps0_sub hostOps0_fresh (bnd0 m ρ)),
    .region (reg0 m ρ),
    .host (hsegH hostOps1 hostOps1_sub hostOps1_fresh (bnd2 m ρ)),
    .region (reg1 m ρ) ]
theorem main_runH (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bnd4 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m ρ c) ∗ RH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (bnd0 m ρ c)
        from Pipeline.unscopedBufs_held c (bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (bnd4 m ρ c) s')
      isplitl [Hh] <;> iassumption)
    (hQ := fun _ h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c)⟩) (run_all m ρ)

/-- The result buffer after the run: what the second region's write-backs leave in its output array. -/
theorem bnd4_result (c : Dev nD) : bnd4 m ρ c (Proc.devRef .tc main_v7) = (dat1 (ent1 m ρ) c).arrAt 5 cfg1.N :=
  bnd4_arr m ρ c 5

end Cert.KernelIdeal.Hand

end
-- ==== Proof.Spec.lean ====
/-
  The mathematics of the layer: on the extended reals, index by index.
  A row of the input is centred by its mean, scaled by the reciprocal root of its variance plus a small constant,
  then by gamma, and shifted by beta. The normalised rows are multiplied by the first weight matrix and biased; the
  tanh form of the GELU is applied entry by entry; the result is multiplied by the second weight matrix and biased.
  Sums are sums over the whole contracted axis; float literals stay as the binary words both programs print.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The literals, as the words the two programs share. -/
def cZero : EReal := Ideal.ofBits .f32 0x00000000#32
def cCols : EReal := Ideal.ofBits .f32 0x45800000#32
def cEps : EReal := Ideal.ofBits .f32 0x3A83126F#32
def cHalf : EReal := Ideal.ofBits .f32 0x3F000000#32
def cCube : EReal := Ideal.ofBits .f32 0x3D372713#32
def cScale : EReal := Ideal.ofBits .f32 0x3F4C422A#32
def cOne : EReal := Ideal.ofBits .f32 0x3F800000#32

/-- The mean of a row of 4096 entries: the sum from the zero word, divided by the word for 4096. -/
def rowMean (v : Fin 4096 → EReal) : EReal := Ideal.div (cZero + ∑ k : Fin 4096, v k) cCols

/-- A row minus its mean. -/
def centred (v : Fin 4096 → EReal) (k : Fin 4096) : EReal := v k - rowMean v

/-- The reciprocal root of the row's variance plus the small constant. -/
def rowScale (v : Fin 4096 → EReal) : EReal :=
  Ideal.rsqrt (rowMean (fun k => centred v k * centred v k) + cEps)

/-- Layer normalisation of the matrix `x` with scale `g` and shift `b`, at row `r` and column `j`. -/
def layerNorm (x : Fin 4096 → Fin 4096 → EReal) (g b : Fin 4096 → EReal) (r j : Fin 4096) : EReal :=
  centred (x r) j * rowScale (x r) * g j + b j

/-- The tanh form of the GELU. -/
def gelu (h : EReal) : EReal :=
  cHalf * h * (cOne + Ideal.tanh (cScale * (h + cCube * h * h * h)))

/-- The first product with its bias: row `r` of `y` against column `j` of `w1`. -/
def hidden (y : Fin 4096 → Fin 4096 → EReal) (w1 : Fin 4096 → Fin 16384 → EReal) (b1 : Fin 16384 → EReal)
    (r : Fin 4096) (j : Fin 16384) : EReal :=
  (∑ k : Fin 4096, y r k * w1 k j) + b1 j

/-- The feed-forward block at row `r` and column `q`. -/
def ffn (y : Fin 4096 → Fin 4096 → EReal) (w1 : Fin 4096 → Fin 16384 → EReal) (b1 : Fin 16384 → EReal)
    (w2 : Fin 16384 → Fin 4096 → EReal) (b2 : Fin 4096 → EReal) (r q : Fin 4096) : EReal :=
  (∑ j : Fin 16384, gelu (hidden y w1 b1 r j) * w2 j q) + b2 q

/-- The whole layer as one function of the seven argument arrays, over the literal shapes. -/
def G (x0 : (⟨2, ![4096, 4096]⟩ : Shape).Idx → EReal) (x1 x2 : (⟨1, ![4096]⟩ : Shape).Idx → EReal)
    (x3 : (⟨2, ![4096, 16384]⟩ : Shape).Idx → EReal) (x4 : (⟨1, ![16384]⟩ : Shape).Idx → EReal)
    (x5 : (⟨2, ![16384, 4096]⟩ : Shape).Idx → EReal) (x6 : (⟨1, ![4096]⟩ : Shape).Idx → EReal) :
    (⟨2, ![4096, 4096]⟩ : Shape).Idx → EReal :=
  fun i => ffn (layerNorm (fun r k => x0 (ix2 r k)) (fun j => x1 (ix1 j)) (fun j => x2 (ix1 j)))
    (fun k j => x3 (ix2 k j)) (fun j => x4 (ix1 j)) (fun j q => x5 (ix2 j q)) (fun q => x6 (ix1 q))
    ⟨(i 0).val, (i 0).isLt⟩ ⟨(i 1).val, (i 1).isLt⟩

/-- The hidden axis split into 32 blocks of 512: a sum over 16384 entries is the sum over the blocks of the
    sums inside each block. On the extended reals addition is commutative and associative, so no finiteness is
    needed. -/
theorem sum_blocks (f : Fin 16384 → EReal) :
    ∑ j : Fin 16384, f j = ∑ kb : Fin 32, ∑ j' : Fin 512, f ⟨kb.val * 512 + j'.val, by omega⟩ := by
  -- The double sum is a single sum over the pairs (block, position in the block).
  rw [← Fintype.sum_prod_type' (f := fun (kb : Fin 32) (j' : Fin 512) =>
    f ⟨kb.val * 512 + j'.val, by omega⟩)]
  -- The pairs correspond one to one to the 16384 indices, the block index being the major one:
  -- the pair (kb, j') goes to j' + 512 * kb.
  refine (Fintype.sum_equiv (finProdFinEquiv (m := 32) (n := 512)) _ _ ?_).symm
  rintro ⟨kb, j'⟩
  congr 1
  apply Fin.ext
  simp only [finProdFinEquiv_apply_val]
  omega

end Cert.Spec

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.KI.Value0.lean ====
/-
  What the first pallas_call leaves in its result array, at the ideal instance: the blocks of 256 rows tile the
  4096 rows, each grid point writes back the normalised block, so the array after the region is the layer
  normalisation of the input array, index by index — a row's entry depends on that row only.
-/
import proofs.«133951_j65077344469262_1_alg».proof.Proof.KI.Region0
import proofs.«133951_j65077344469262_1_alg».proof.Proof.Spec
import proofs.«133951_j65077344469262_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.LibColumn

variable (V : (c : Dev nD) → (b : Ref sig .tc) → Buf (Elt Ideal) ((c : Thread nD τ).loc b))

/-! ## The body's stored value at an index -/

/-- The column of row means of a block of 256 rows, as the body forms it: the lane sum along the columns, kept as a
    column, over the word for 4096. At row `p` it is the mean of that row (the lane sum starts from nothing, the
    specification's sum from the zero word: the same). -/
private theorem mean_col (x : FVec Ideal S256x4096 .f32) (p : Fin 256) (u : Fin 1) :
    divf (shapeCast S256x1 (multiReduction (F := Ideal) .add [1] S256 x 0x00000000#32 reduces_S256x4096_S256 (.inl rfl) rfl) shapeCasts_S256_S256x1)
      (broadcast S256x1 (Scalar.ofBits (F := Ideal) .f32 0x45800000#32)) (ix2 p u)
      = Spec.rowMean (fun k => x (ix2 p k)) := by
  show Ideal.div (shapeCast S256x1 (multiReduction (F := Ideal) .add [1] S256 x 0x00000000#32 reduces_S256x4096_S256 (.inl rfl) rfl) shapeCasts_S256_S256x1 (ix2 p u)) (Ideal.ofBits .f32 0x45800000#32) = _
  refine congrArg (fun s => Ideal.div s (Ideal.ofBits .f32 0x45800000#32)) ?_
  refine (shapeCast_a_a1_apply _ shapeCasts_S256_S256x1 p u).trans ?_
  refine (multiReduction_add_last_apply x reduces_S256x4096_S256 (.inl rfl) rfl p).trans ?_
  unfold Spec.cZero
  rw [Ideal.ofBits_zero_f32, zero_add]

/-- A block minus its column of row means spread back over the columns. -/
private def cen (x : FVec Ideal S256x4096 .f32) : FVec Ideal S256x4096 .f32 :=
  subf x (broadcastTo S256x4096
    (divf (shapeCast S256x1 (multiReduction (F := Ideal) .add [1] S256 x 0x00000000#32 reduces_S256x4096_S256 (.inl rfl) rfl) shapeCasts_S256_S256x1)
      (broadcast S256x1 (Scalar.ofBits (F := Ideal) .f32 0x45800000#32))) broadcasts_S256x1_S256x4096)

/-- At `(p, k)` it is the row's entry minus the row's mean. -/
private theorem cen_apply (x : FVec Ideal S256x4096 .f32) (p : Fin 256) (k : Fin 4096) :
    cen x (ix2 p k) = Spec.centred (fun k => x (ix2 p k)) k := by
  show x (ix2 p k) - broadcastTo S256x4096 _ broadcasts_S256x1_S256x4096 (ix2 p k) = x (ix2 p k) - Spec.rowMean (fun k => x (ix2 p k))
  refine congrArg (fun s => x (ix2 p k) - s) ?_
  exact (broadcastTo_a1_ab_apply _ broadcasts_S256x1_S256x4096 p k).trans (mean_col x p 0)

/-- The column of reciprocal roots: the row means of the squared centred block plus the small constant, under the
    reciprocal root. At row `p` it is the specification's scale of that row. -/
private theorem scale_col (x : FVec Ideal S256x4096 .f32) (p : Fin 256) (u : Fin 1) :
    rsqrt (addf (divf (shapeCast S256x1 (multiReduction (F := Ideal) .add [1] S256 (mulf (cen x) (cen x)) 0x00000000#32 reduces_S256x4096_S256 (.inl rfl) rfl) shapeCasts_S256_S256x1)
        (broadcast S256x1 (Scalar.ofBits (F := Ideal) .f32 0x45800000#32)))
      (broadcast S256x1 (Scalar.ofBits (F := Ideal) .f32 0x3A83126F#32))) (ix2 p u)
      = Spec.rowScale (fun k => x (ix2 p k)) := by
  show Ideal.rsqrt (divf (shapeCast S256x1 (multiReduction (F := Ideal) .add [1] S256 (mulf (cen x) (cen x)) 0x00000000#32 reduces_S256x4096_S256 (.inl rfl) rfl) shapeCasts_S256_S256x1)
        (broadcast S256x1 (Scalar.ofBits (F := Ideal) .f32 0x45800000#32)) (ix2 p u) + Ideal.ofBits .f32 0x3A83126F#32) = _
  refine congrArg (fun s => Ideal.rsqrt (s + Ideal.ofBits .f32 0x3A83126F#32)) ?_
  refine (mean_col (mulf (cen x) (cen x)) p u).trans ?_
  refine congrArg Spec.rowMean (funext fun k => ?_)
  show cen x (ix2 p k) * cen x (ix2 p k) = _
  rw [cen_apply]

/-- The body's stored value is the centred block times the spread column of scales, times the scale row, plus the
    shift row (the change of format at the end keeps an extended real as it is). -/
private theorem pay_eq (x0 : Vec Ideal S256x4096 .f32) (g b : Vec Ideal S1x4096 .f32) :
    k0_pay1 (F := Ideal) x0 g b =
      truncf .bf16 (addf (mulf (mulf (cen x0) (broadcastTo S256x4096
        (rsqrt (addf (divf (shapeCast S256x1 (multiReduction (F := Ideal) .add [1] S256 (mulf (cen x0) (cen x0)) 0x00000000#32 reduces_S256x4096_S256 (.inl rfl) rfl) shapeCasts_S256_S256x1)
          (broadcast S256x1 (Scalar.ofBits (F := Ideal) .f32 0x45800000#32)))
          (broadcast S256x1 (Scalar.ofBits (F := Ideal) .f32 0x3A83126F#32)))) broadcasts_S256x1_S256x4096))
        (broadcastTo S256x4096 (shapeCast S1x4096 g shapeCasts_S1x4096_S1x4096) broadcasts_S1x4096_S256x4096))
        (broadcastTo S256x4096 (shapeCast S1x4096 b shapeCasts_S1x4096_S1x4096) broadcasts_S1x4096_S256x4096)) bitsLt_bf16_f32 := rfl

/-- A one-row array cast to its own shape and spread over 256 rows reads, at `(p, q)`, the row's entry `q`. -/
private theorem row_apply (g : Vec Ideal S1x4096 .f32) (p : Fin 256) (q : Fin 4096) :
    broadcastTo S256x4096 (shapeCast S1x4096 g shapeCasts_S1x4096_S1x4096) broadcasts_S1x4096_S256x4096 (ix2 p q) = g (ix2 (0 : Fin 1) q) :=
  (broadcastTo_1b_ab_apply _ broadcasts_S1x4096_S256x4096 p q).trans (congrFun (shapeCast_self g shapeCasts_S1x4096_S1x4096) _)

/-- THE BODY'S STORED VALUE AT `(p, q)`: the layer normalisation of row `p` of the block at column `q`, with the scale
    and shift rows' entries `q`. -/
private theorem pay_apply (x0 : Vec Ideal S256x4096 .f32) (g b : Vec Ideal S1x4096 .f32) (p : Fin 256) (q : Fin 4096) :
    k0_pay1 (F := Ideal) x0 g b (ix2 p q) =
      Spec.centred (fun k => x0 (ix2 p k)) q * Spec.rowScale (fun k => x0 (ix2 p k)) * g (ix2 (0 : Fin 1) q) + b (ix2 (0 : Fin 1) q) := by
  refine (congrFun (pay_eq x0 g b) (ix2 p q)).trans ?_
  show cen x0 (ix2 p q) * broadcastTo S256x4096 _ broadcasts_S256x1_S256x4096 (ix2 p q)
      * broadcastTo S256x4096 (shapeCast S1x4096 g shapeCasts_S1x4096_S1x4096) broadcasts_S1x4096_S256x4096 (ix2 p q)
      + broadcastTo S256x4096 (shapeCast S1x4096 b shapeCasts_S1x4096_S1x4096) broadcasts_S1x4096_S256x4096 (ix2 p q) = _
  rw [row_apply g p q, row_apply b p q, cen_apply x0 p q]
  refine congrArg (fun s => Spec.centred (fun k => x0 (ix2 p k)) q * s * g (ix2 (0 : Fin 1) q) + b (ix2 (0 : Fin 1) q)) ?_
  exact (broadcastTo_a1_ab_apply _ broadcasts_S256x1_S256x4096 p q).trans (scale_col x0 p 0)

/-! ## From the blocks to the array -/

/-- The same value with row `p` of the block and the two rows' entries named: the specification's formula at a row. -/
private theorem pay_row (x0 : Vec Ideal S256x4096 .f32) (g b : Vec Ideal S1x4096 .f32) (p : Fin 256) (q : Fin 4096)
    (xr gr br : Fin 4096 → EReal) (hx : ∀ k, x0 (ix2 p k) = xr k) (hg : g (ix2 (0 : Fin 1) q) = gr q)
    (hb : b (ix2 (0 : Fin 1) q) = br q) :
    k0_pay1 (F := Ideal) x0 g b (ix2 p q) = Spec.centred xr q * Spec.rowScale xr * gr q + br q := by
  rw [pay_apply, funext hx, hg, hb]

/-- The printed index maps, decided once over the 16 points: the input block and the output block of point `t` are
    block row `t`, block column 0; the scale and the shift are always their one block. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer normalisation of the three input arrays as the region finds them, as one function of the output's index. -/
private abbrev lnArr (c : Dev nD) : S4096x4096.Idx → EReal := fun i =>
  Spec.layerNorm (fun r k => (V c main_arg0 : S4096x4096.Idx → EReal) (ix2 r k))
    (fun j => (V c main_v0 : S1x4096.Idx → EReal) (ix2 (0 : Fin 1) j))
    (fun j => (V c main_v1 : S1x4096.Idx → EReal) (ix2 (0 : Fin 1) j))
    ⟨(i 0).val, (i 0).isLt⟩ ⟨(i 1).val, (i 1).isLt⟩

/-- It depends on the index through its two coordinates only. -/
private theorem lnArr_at (c : Dev nD) (i : S4096x4096.Idx) (r q : Fin 4096) (h0 : (i 0).val = r.val) (h1 : (i 1).val = q.val) :
    lnArr V c i = Spec.layerNorm (fun r k => (V c main_arg0 : S4096x4096.Idx → EReal) (ix2 r k))
      (fun j => (V c main_v0 : S1x4096.Idx → EReal) (ix2 (0 : Fin 1) j))
      (fun j => (V c main_v1 : S1x4096.Idx → EReal) (ix2 (0 : Fin 1) j)) r q := by
  have e0 : (⟨(i 0).val, (i 0).isLt⟩ : Fin 4096) = r := Fin.ext h0
  have e1 : (⟨(i 1).val, (i 1).isLt⟩ : Fin 4096) = q := Fin.ext h1
  show Spec.layerNorm _ _ _ ⟨(i 0).val, (i 0).isLt⟩ ⟨(i 1).val, (i 1).isLt⟩ = _
  rw [e0, e1]

/-- Row `p` of point `t`'s input block is row `256 t + p` of the input array. -/
private theorem xblk_apply (c : Dev nD) (t : Fin cfg0.N) (p : Fin 256) (k : Fin 4096) (r : Fin 4096)
    (hr : r.val = t.val * 256 + p.val) :
    (iblk0 V c 0 t : Vec Ideal S256x4096 .f32) (ix2 p k) = (V c main_arg0 : S4096x4096.Idx → EReal) (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 256 + 1 * p.val = r.val; rw [e0, hr]; omega
  | ⟨1, _⟩ => show win0_0.index t (1 : Fin 2) * 4096 + 1 * k.val = k.val; rw [e1]; omega

/-- The scale's block at every point is the scale's one row. -/
private theorem gblk_apply (c : Dev nD) (t : Fin cfg0.N) (q : Fin 4096) :
    (iblk0 V c 1 t : Vec Ideal S1x4096 .f32) (ix2 (0 : Fin 1) q) = (V c main_v0 : S1x4096.Idx → EReal) (ix2 (0 : Fin 1) q) := by
  obtain ⟨-, -, e2, e3, -⟩ := idx_facts t
  show V c main_v0 (((cfg0.win 1).blk t).view.emb (ix2 (0 : Fin 1) q)) = V c main_v0 (ix2 (0 : Fin 1) q)
  refine congrArg (V c main_v0) (funext fun a => Fin.ext ?_)
  match a with
  | ⟨0, _⟩ => show win0_1.index t (0 : Fin 2) * 1 + 1 * 0 = 0; rw [e2]
  | ⟨1, _⟩ => show win0_1.index t (1 : Fin 2) * 4096 + 1 * q.val = q.val; rw [e3]; omega

/-- The shift's block at every point is the shift's one row. -/
private theorem bblk_apply (c : Dev nD) (t : Fin cfg0.N) (q : Fin 4096) :
    (iblk0 V c 2 t : Vec Ideal S1x4096 .f32) (ix2 (0 : Fin 1) q) = (V c main_v1 : S1x4096.Idx → EReal) (ix2 (0 : Fin 1) q) := by
  obtain ⟨-, -, -, -, e4, e5, -⟩ := idx_facts t
  show V c main_v1 (((cfg0.win 2).blk t).view.emb (ix2 (0 : Fin 1) q)) = V c main_v1 (ix2 (0 : Fin 1) q)
  refine congrArg (V c main_v1) (funext fun a => Fin.ext ?_)
  match a with
  | ⟨0, _⟩ => show win0_2.index t (0 : Fin 2) * 1 + 1 * 0 = 0; rw [e4]
  | ⟨1, _⟩ => show win0_2.index t (1 : Fin 2) * 4096 + 1 * q.val = q.val; rw [e5]; omega

/-- WHAT POINT `t` WRITES BACK is block `t` of the layer normalisation of the arrays: entry `(p, q)` of the body's stored
    value is the formula at row `p` of the input block, which is row `256 t + p` of the input array, and the output's
    block puts it at `(256 t + p, q)`. -/
private theorem flushed_eq (c : Dev nD) (t : Fin cfg0.N) :
    (dat0 (F := Ideal) V c).flushed 3 t = ((cfg0.win 3).blk t).view.read (Elt Ideal) (lnArr V c) := by
  show (cfg0.win 3).cut (grid0.coords t) ((dat0 (F := Ideal) V c).after 3 t) = _
  rw [after0_3]
  have hN : cfg0.N = 16 := N_0
  have ht : t.val < 16 := hN ▸ t.isLt
  obtain ⟨-, -, -, -, -, -, e6, e7⟩ := idx_facts t
  refine funext fun (j : S256x4096.Idx) => ?_
  obtain ⟨p, q, rfl⟩ : ∃ (p : Fin 256) (q : Fin 4096), j = ix2 p q := ⟨j 0, j 1, eq_ix2 j⟩
  have hp : p.val < 256 := p.isLt
  show k0_pay1 (F := Ideal) (iblk0 V c 0 t) (iblk0 V c 1 t) (iblk0 V c 2 t) (ix2 p q)
    = lnArr V c (((cfg0.win 3).blk t).view.emb (ix2 p q))
  refine (pay_row (iblk0 V c 0 t) (iblk0 V c 1 t) (iblk0 V c 2 t) p q
    (fun k => (V c main_arg0 : S4096x4096.Idx → EReal) (ix2 (⟨t.val * 256 + p.val, by omega⟩ : Fin 4096) k))
    (fun j => (V c main_v0 : S1x4096.Idx → EReal) (ix2 (0 : Fin 1) j))
    (fun j => (V c main_v1 : S1x4096.Idx → EReal) (ix2 (0 : Fin 1) j))
    (fun k => xblk_apply V c t p k ⟨t.val * 256 + p.val, by omega⟩ rfl) (gblk_apply V c t q) (bblk_apply V c t q)).trans ?_
  refine (lnArr_at V c _ ⟨t.val * 256 + p.val, by omega⟩ q ?_ ?_).symm
  · show win0_3.index t (0 : Fin 2) * 256 + 1 * p.val = t.val * 256 + p.val; rw [e6]; omega
  · show win0_3.index t (1 : Fin 2) * 4096 + 1 * q.val = q.val; rw [e7]; omega

/-- An index of the output array is in point `t`'s block iff each coordinate is in the block's range on its axis. -/
private theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v2).slice (win0_3.rect t)).set ↔ _
  rw [View.set_slice_whole, Rect.mem_set_unit]
  exact Iff.rfl

/-- Every index of the output array is in the block of the point its row falls to: row `r` in that of point `r / 256`. -/
private theorem covered (i : S4096x4096.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 4096 := (i 1).isLt
  obtain ⟨t, ht⟩ : ∃ t : Fin cfg0.N, t.val = (i 0).val / 256 := ⟨⟨(i 0).val / 256, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 4096 ≤ (i 1).val ∧ (i 1).val < win0_3.index t (1 : Fin 2) * 4096 + 4096
    rw [e7]; omega

/-- The result array of region 0 after its last point is the layer normalisation of its three input arrays as the
    region found them (the scale and the shift are 1 x 4096 arrays: their one row is read). -/
theorem arr0_value (c : Dev nD) :
    ((dat0 (F := Ideal) V c).arrAt 3 cfg0.N : S4096x4096.Idx → EReal) =
      fun i => Spec.layerNorm (fun r k => (V c main_arg0 : S4096x4096.Idx → EReal) (ix2 r k))
        (fun j => (V c main_v0 : S1x4096.Idx → EReal) (ix2 (0 : Fin 1) j))
        (fun j => (V c main_v1 : S1x4096.Idx → EReal) (ix2 (0 : Fin 1) j))
        ⟨(i 0).val, (i 0).isLt⟩ ⟨(i 1).val, (i 1).isLt⟩ :=
  (dat0 (F := Ideal) V c).arrAt_eq_of_cover 3 (lnArr V c) (fun t _ => flushed_eq V c t) covered

end Cert.KernelIdeal.HandValue

end
-- ==== Proof.KI.Pay1.lean ====
/-
  The three stored values of the second kernel's body read at an index, at the ideal instance. The accumulator's new
  value at row r and column q is its old value plus the sum, over the 512 hidden entries of the block, of the GELU of
  the hidden entry (row r of the normalised block against column j of the first weight block, plus the bias entry)
  times the second weight block's entry (j, q). The reset value is the zero word everywhere. The stored output is the
  accumulator plus the bias row's entry q.
-/
import proofs.«133951_j65077344469262_1_alg».proof.Proof.Gen.KernelIdeal.Skeleton
import proofs.«133951_j65077344469262_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two matrix products at an index

Both contract the left operand's second axis against the right operand's first, with no batch axis: at the output index
(r, c) and the contraction index k the operands are read at (r, k) and (k, c). -/

private theorem lhs_mm1_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl
private theorem lhs_mm1_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
private theorem rhs_mm1_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
private theorem rhs_mm1_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

/-- The first product into the zero accumulator, at (r, c): row r of the left operand against column c of the right. -/
private theorem mm1_apply (a : FVec Ideal S512x4096 .bf16) (b : FVec Ideal S4096x512 .bf16) (r c : Fin 512) :
    matmul dot_S512x4096_S4096x512_S512x512_1_0_0_1_n_n none a b (constant (F := Ideal) S512x512 .f32 0x00000000#32) (ix2 r c)
      = ∑ k : Fin 4096, a (ix2 r k) * b (ix2 k c) := by
  simp only [matmul]
  rw [Ideal.matmul_constant_zero_apply,
    ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 r c)
      ((contrEquiv1 dot_S512x4096_S4096x512_S512x512_1_0_0_1_n_n 4096 rfl rfl).symm k) = ix2 r k :=
    funext fun ax => Fin.ext (by
      match ax with
      | ⟨0, _⟩ => exact lhs_mm1_0 _ _
      | ⟨1, _⟩ => exact (lhs_mm1_1 _ _).trans hk)
  have er : dot_S512x4096_S4096x512_S512x512_1_0_0_1_n_n.rhsIdx (ix2 r c)
      ((contrEquiv1 dot_S512x4096_S4096x512_S512x512_1_0_0_1_n_n 4096 rfl rfl).symm k) = ix2 k c :=
    funext fun ax => Fin.ext (by
      match ax with
      | ⟨0, _⟩ => exact (rhs_mm1_0 _ _).trans hk
      | ⟨1, _⟩ => exact rhs_mm1_1 _ _)
  rw [el, er]

private theorem lhs_mm2_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide),
    dif_pos (show (0 : Fin S512x512.rank) ∈ dot_S512x512_S512x4096_S512x4096_1_0_0_1_n_n.lhsNonContracting by decide)]
  rfl
private theorem lhs_mm2_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
private theorem rhs_mm2_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
private theorem rhs_mm2_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide),
    dif_pos (show (1 : Fin S512x4096.rank) ∈ dot_S512x512_S512x4096_S512x4096_1_0_0_1_n_n.rhsNonContracting by decide)]
  rfl

/-- The second product into the zero accumulator, at (r, q): row r of the left operand against column q of the right. -/
private theorem mm2_apply (a : FVec Ideal S512x512 .bf16) (b : FVec Ideal S512x4096 .bf16) (r : Fin 512) (q : Fin 4096) :
    matmul dot_S512x512_S512x4096_S512x4096_1_0_0_1_n_n none a b (constant (F := Ideal) S512x4096 .f32 0x00000000#32) (ix2 r q)
      = ∑ j : Fin 512, a (ix2 r j) * b (ix2 j q) := by
  simp only [matmul]
  rw [Ideal.matmul_constant_zero_apply,
    ← Equiv.sum_comp (contrEquiv1 dot_S512x512_S512x4096_S512x4096_1_0_0_1_n_n 512 rfl rfl).symm]
  refine Finset.sum_congr rfl fun j _ => ?_
  have hj := contrEquiv1_symm_val dot_S512x512_S512x4096_S512x4096_1_0_0_1_n_n 512 rfl rfl j
  have el : dot_S512x512_S512x4096_S512x4096_1_0_0_1_n_n.lhsIdx (ix2 r q)
      ((contrEquiv1 dot_S512x512_S512x4096_S512x4096_1_0_0_1_n_n 512 rfl rfl).symm j) = ix2 r j :=
    funext fun ax => Fin.ext (by
      match ax with
      | ⟨0, _⟩ => exact lhs_mm2_0 _ _
      | ⟨1, _⟩ => exact (lhs_mm2_1 _ _).trans hj)
  have er : dot_S512x512_S512x4096_S512x4096_1_0_0_1_n_n.rhsIdx (ix2 r q)
      ((contrEquiv1 dot_S512x512_S512x4096_S512x4096_1_0_0_1_n_n 512 rfl rfl).symm j) = ix2 j q :=
    funext fun ax => Fin.ext (by
      match ax with
      | ⟨0, _⟩ => exact (rhs_mm2_0 _ _).trans hj
      | ⟨1, _⟩ => exact rhs_mm2_1 _ _)
  rw [el, er]

/-! ## The hidden block -/

/-- The hidden block as the body computes it: the first product, of the two loaded blocks each cast to its own shape, into
    the zero accumulator, plus the bias row broadcast over the rows. -/
private def hid (x2 : FVec Ideal S512x4096 .bf16) (x3 : FVec Ideal S4096x512 .bf16) (x4 : FVec Ideal S1x512 .f32) :
    FVec Ideal S512x512 .f32 :=
  addf
    (matmul dot_S512x4096_S4096x512_S512x512_1_0_0_1_n_n none (shapeCast S512x4096 x2 shapeCasts_S512x4096_S512x4096)
      (shapeCast S4096x512 x3 shapeCasts_S4096x512_S4096x512) (constant (F := Ideal) S512x512 .f32 0x00000000#32))
    (broadcastTo S512x512 (shapeCast S1x512 x4 shapeCasts_S1x512_S1x512) broadcasts_S1x512_S512x512)

/-- At (r, j): row r of the normalised block against column j of the weight block, plus the bias entry j. -/
private theorem hid_apply (x2 : FVec Ideal S512x4096 .bf16) (x3 : FVec Ideal S4096x512 .bf16) (x4 : FVec Ideal S1x512 .f32)
    (r j : Fin 512) :
    hid x2 x3 x4 (ix2 r j) = (∑ k : Fin 4096, x2 (ix2 r k) * x3 (ix2 k j)) + x4 (ix2 (0 : Fin 1) j) := by
  unfold hid
  refine congrArg₂ (· + ·) ?_ ?_
  · refine (mm1_apply _ _ r j).trans ?_
    rw [shapeCast_self, shapeCast_self]
  · refine (broadcastTo_1b_ab_apply _ broadcasts_S1x512_S512x512 r j).trans ?_
    exact congrFun (shapeCast_self x4 shapeCasts_S1x512_S1x512) _

/-- The accumulate payload at (r, q). -/
theorem pay3_apply (x2 : Vec Ideal S512x4096 .bf16) (x3 : Vec Ideal S4096x512 .bf16) (x4 : Vec Ideal S1x512 .f32)
    (x5 : Vec Ideal S512x4096 .bf16) (s : Vec Ideal S512x4096 .f32) (r : Fin 512) (q : Fin 4096) :
    k1_pay3 (F := Ideal) x2 x3 x4 x5 s (ix2 r q)
      = s (ix2 r q) + ∑ j' : Fin 512,
          Spec.gelu ((∑ k : Fin 4096, x2 (ix2 r k) * x3 (ix2 k j')) + x4 (ix2 (0 : Fin 1) j')) * x5 (ix2 j' q) := by
  unfold k1_pay3
  -- the last cast is to the same shape; under it the old accumulator plus the second product
  refine (congrFun (shapeCast_self _ shapeCasts_S512x4096_S512x4096) (ix2 r q)).trans ?_
  refine congrArg (s (ix2 r q) + ·) ?_
  refine (mm2_apply _ _ r q).trans ?_
  refine Finset.sum_congr rfl fun j' _ => ?_
  -- the right factor is the loaded block cast to its own shape; the left one is the activation of the hidden entry,
  -- narrowed to the storage format, which on the extended reals changes nothing
  refine congrArg₂ (· * ·) ?_ (congrFun (shapeCast_self x5 shapeCasts_S512x4096_S512x4096) _)
  rw [← hid_apply x2 x3 x4 r j']
  rfl

/-- The reset payload is the zero word at every index. -/
theorem pay2_apply (r : Fin 512) (q : Fin 4096) : k1_pay2 (F := Ideal) (ix2 r q) = Spec.cZero := by
  unfold k1_pay2
  -- a cast to the same shape of the zero word broadcast everywhere
  refine (congrFun (shapeCast_self _ shapeCasts_S512x4096_S512x4096) (ix2 r q)).trans ?_
  rfl

/-- The output payload at (r, q): the accumulator plus the bias row. -/
theorem pay1_apply (s : Vec Ideal S512x4096 .f32) (x6 : Vec Ideal S1x4096 .f32) (r : Fin 512) (q : Fin 4096) :
    k1_pay1 (F := Ideal) s x6 (ix2 r q) = s (ix2 r q) + x6 (ix2 (0 : Fin 1) q) := by
  unfold k1_pay1
  refine congrArg (s (ix2 r q) + ·) ?_
  -- the bias row, cast to its own shape, broadcast over the rows
  refine (broadcastTo_1b_ab_apply _ broadcasts_S1x4096_S512x4096 r q).trans ?_
  exact congrFun (shapeCast_self x6 shapeCasts_S1x4096_S1x4096) _

end Cert.KernelIdeal.HandValue

end
-- ==== Proof.KI.Value1.lean ====
/-
  What the second pallas_call leaves in its result array, at the ideal instance. At a grid point (row tile i,
  hidden block k) the accumulator gains, at row r and column q, the sum over the 512 hidden entries of block k of
  gelu(hidden entry) times the second weight; after the 32 blocks of a row tile it holds the sum over all 16384
  hidden entries (from the stored zero), and the block written back is that plus the bias. The row tiles of 512
  rows tile the 4096 rows.
-/
import proofs.«133951_j65077344469262_1_alg».proof.Proof.KI.Region1
import proofs.«133951_j65077344469262_1_alg».proof.Proof.KI.Pay1
import proofs.«133951_j65077344469262_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The blocks and the arrays, named at their literal types -/

/-- The normalised rows (the first call's result), as the region finds them. -/
private abbrev yArr (c : Dev nD) : S4096x4096.Idx → EReal := V c main_v2
/-- The first weight matrix. -/
private abbrev w1Arr (c : Dev nD) : S4096x16384.Idx → EReal := V c main_v3
/-- The first bias, a 1 x 16384 array. -/
private abbrev b1Arr (c : Dev nD) : S1x16384.Idx → EReal := V c main_v5
/-- The second weight matrix. -/
private abbrev w2Arr (c : Dev nD) : S16384x4096.Idx → EReal := V c main_v4
/-- The second bias, a 1 x 4096 array. -/
private abbrev b2Arr (c : Dev nD) : S1x4096.Idx → EReal := V c main_v6

/-- The row tile of the normalised rows read at point `t`. -/
private abbrev yBlk (c : Dev nD) (t : Fin cfg1.N) : Vec Ideal S512x4096 .bf16 := iblk1 V c 0 t
/-- The 512 columns of the first weight matrix read at point `t`. -/
private abbrev w1Blk (c : Dev nD) (t : Fin cfg1.N) : Vec Ideal S4096x512 .bf16 := iblk1 V c 1 t
/-- The 512 entries of the first bias read at point `t`. -/
private abbrev b1Blk (c : Dev nD) (t : Fin cfg1.N) : Vec Ideal S1x512 .f32 := iblk1 V c 2 t
/-- The 512 rows of the second weight matrix read at point `t`. -/
private abbrev w2Blk (c : Dev nD) (t : Fin cfg1.N) : Vec Ideal S512x4096 .bf16 := iblk1 V c 3 t
/-- The second bias read at point `t` (always the whole of it). -/
private abbrev b2Blk (c : Dev nD) (t : Fin cfg1.N) : Vec Ideal S1x4096 .f32 := iblk1 V c 4 t

/-- The printed index maps over the grid: point `t` is row tile `t / 32`, hidden block `t % 32`. -/
private theorem idx_facts1 : ∀ t : Fin cfg1.N,
    win1_0.index t (0 : Fin 2) = t.val / 32 ∧ win1_0.index t (1 : Fin 2) = 0
    ∧ win1_1.index t (0 : Fin 2) = 0 ∧ win1_1.index t (1 : Fin 2) = t.val % 32
    ∧ win1_2.index t (0 : Fin 2) = 0 ∧ win1_2.index t (1 : Fin 2) = t.val % 32
    ∧ win1_3.index t (0 : Fin 2) = t.val % 32 ∧ win1_3.index t (1 : Fin 2) = 0
    ∧ win1_4.index t (0 : Fin 2) = 0 ∧ win1_4.index t (1 : Fin 2) = 0
    ∧ win1_5.index t (0 : Fin 2) = t.val / 32 ∧ win1_5.index t (1 : Fin 2) = 0 :=
  (by decide +kernel : ∀ t : Fin grid1.N, _)

/-- The array row of row `r` of the tile at point `t`. -/
private def rowAt (t : Fin cfg1.N) (r : Fin 512) : Fin 4096 :=
  ⟨t.val / 32 * 512 + r.val, by have h : t.val < 256 := lt_of_lt_of_eq t.isLt N_1; have := r.isLt; omega⟩

/-- The hidden index of entry `j` of the hidden block at point `t`. -/
private def hidAt (t : Fin cfg1.N) (j : Fin 512) : Fin 16384 :=
  ⟨t.val % 32 * 512 + j.val, by have := j.isLt; omega⟩

private theorem yBlk_apply (c : Dev nD) (t : Fin cfg1.N) (r : Fin 512) (k : Fin 4096) :
    yBlk V c t (ix2 r k) = yArr V c (ix2 (rowAt t r) k) := by
  obtain ⟨e0, e1, -⟩ := idx_facts1 t
  show V c main_v2 (((cfg1.win 0).blk t).view.emb (ix2 r k)) = V c main_v2 (ix2 (rowAt t r) k)
  refine congrArg (V c main_v2) (funext fun a => Fin.ext ?_)
  match a with
  | ⟨0, _⟩ => show win1_0.index t (0 : Fin 2) * 512 + 1 * r.val = t.val / 32 * 512 + r.val; omega
  | ⟨1, _⟩ => show win1_0.index t (1 : Fin 2) * 4096 + 1 * k.val = k.val; omega

private theorem w1Blk_apply (c : Dev nD) (t : Fin cfg1.N) (k : Fin 4096) (j : Fin 512) :
    w1Blk V c t (ix2 k j) = w1Arr V c (ix2 k (hidAt t j)) := by
  obtain ⟨-, -, e0, e1, -⟩ := idx_facts1 t
  show V c main_v3 (((cfg1.win 1).blk t).view.emb (ix2 k j)) = V c main_v3 (ix2 k (hidAt t j))
  refine congrArg (V c main_v3) (funext fun a => Fin.ext ?_)
  match a with
  | ⟨0, _⟩ => show win1_1.index t (0 : Fin 2) * 4096 + 1 * k.val = k.val; omega
  | ⟨1, _⟩ => show win1_1.index t (1 : Fin 2) * 512 + 1 * j.val = t.val % 32 * 512 + j.val; omega

private theorem b1Blk_apply (c : Dev nD) (t : Fin cfg1.N) (j : Fin 512) :
    b1Blk V c t (ix2 (0 : Fin 1) j) = b1Arr V c (ix2 (0 : Fin 1) (hidAt t j)) := by
  obtain ⟨-, -, -, -, e0, e1, -⟩ := idx_facts1 t
  show V c main_v5 (((cfg1.win 2).blk t).view.emb (ix2 (0 : Fin 1) j)) = V c main_v5 (ix2 (0 : Fin 1) (hidAt t j))
  refine congrArg (V c main_v5) (funext fun a => Fin.ext ?_)
  match a with
  | ⟨0, _⟩ => show win1_2.index t (0 : Fin 2) * 1 + 1 * 0 = 0; omega
  | ⟨1, _⟩ => show win1_2.index t (1 : Fin 2) * 512 + 1 * j.val = t.val % 32 * 512 + j.val; omega

private theorem w2Blk_apply (c : Dev nD) (t : Fin cfg1.N) (j : Fin 512) (q : Fin 4096) :
    w2Blk V c t (ix2 j q) = w2Arr V c (ix2 (hidAt t j) q) := by
  obtain ⟨-, -, -, -, -, -, e0, e1, -⟩ := idx_facts1 t
  show V c main_v4 (((cfg1.win 3).blk t).view.emb (ix2 j q)) = V c main_v4 (ix2 (hidAt t j) q)
  refine congrArg (V c main_v4) (funext fun a => Fin.ext ?_)
  match a with
  | ⟨0, _⟩ => show win1_3.index t (0 : Fin 2) * 512 + 1 * j.val = t.val % 32 * 512 + j.val; omega
  | ⟨1, _⟩ => show win1_3.index t (1 : Fin 2) * 4096 + 1 * q.val = q.val; omega

private theorem b2Blk_apply (c : Dev nD) (t : Fin cfg1.N) (q : Fin 4096) :
    b2Blk V c t (ix2 (0 : Fin 1) q) = b2Arr V c (ix2 (0 : Fin 1) q) := by
  obtain ⟨-, -, -, -, -, -, -, -, e0, e1, -⟩ := idx_facts1 t
  show V c main_v6 (((cfg1.win 4).blk t).view.emb (ix2 (0 : Fin 1) q)) = V c main_v6 (ix2 (0 : Fin 1) q)
  refine congrArg (V c main_v6) (funext fun a => Fin.ext ?_)
  match a with
  | ⟨0, _⟩ => show win1_4.index t (0 : Fin 2) * 1 + 1 * 0 = 0; omega
  | ⟨1, _⟩ => show win1_4.index t (1 : Fin 2) * 4096 + 1 * q.val = q.val; omega

/-! ## The accumulation along the 32 hidden blocks of a row tile -/

/-- The arrays as the specification's functions of coordinates. -/
private abbrev yF (c : Dev nD) : Fin 4096 → Fin 4096 → EReal := fun r k => (V c main_v2 : S4096x4096.Idx → EReal) (ix2 r k)
private abbrev w1F (c : Dev nD) : Fin 4096 → Fin 16384 → EReal := fun k j => (V c main_v3 : S4096x16384.Idx → EReal) (ix2 k j)
private abbrev b1F (c : Dev nD) : Fin 16384 → EReal := fun j => (V c main_v5 : S1x16384.Idx → EReal) (ix2 (0 : Fin 1) j)
private abbrev w2F (c : Dev nD) : Fin 16384 → Fin 4096 → EReal := fun j q => (V c main_v4 : S16384x4096.Idx → EReal) (ix2 j q)
private abbrev b2F (c : Dev nD) : Fin 4096 → EReal := fun q => (V c main_v6 : S1x4096.Idx → EReal) (ix2 (0 : Fin 1) q)

/-- What hidden block `kb` adds to the entry at array row `ρ` and column `q`: the sum over the block's 512 hidden
    entries of gelu(hidden entry) times the second weight (nothing past the 32 blocks). -/
private def blockTerm (c : Dev nD) (ρ q : Fin 4096) (kb : ℕ) : EReal :=
  if h : kb < 32 then
    ∑ j' : Fin 512, Spec.gelu (Spec.hidden (yF V c) (w1F V c) (b1F V c) ρ ⟨kb * 512 + j'.val, by have := j'.isLt; omega⟩)
      * w2F V c ⟨kb * 512 + j'.val, by have := j'.isLt; omega⟩ q
  else 0

/-- The sum the body adds at point `t`, over the blocks it has loaded, is the term of hidden block `t % 32` at the
    tile's array row. -/
private theorem blockSum_eq (c : Dev nD) (t : Fin cfg1.N) (r : Fin 512) (q : Fin 4096) :
    (∑ j' : Fin 512, Spec.gelu ((∑ k : Fin 4096, yBlk V c t (ix2 r k) * w1Blk V c t (ix2 k j')) + b1Blk V c t (ix2 (0 : Fin 1) j'))
        * w2Blk V c t (ix2 j' q))
      = blockTerm V c (rowAt t r) q (t.val % 32) := by
  unfold blockTerm
  rw [dif_pos (Nat.mod_lt _ (by decide))]
  refine Finset.sum_congr rfl fun j' _ => ?_
  rw [w2Blk_apply, b1Blk_apply]
  refine congrArg₂ (· * ·) (congrArg Spec.gelu ?_) rfl
  unfold Spec.hidden
  refine congrArg₂ (· + ·) (Finset.sum_congr rfl fun k _ => ?_) rfl
  rw [yBlk_apply, w1Blk_apply]
  rfl

/-- THE ACCUMULATOR after the point at position `n`, at row `r` and column `q` of the tile: from the stored zero, the
    terms of the hidden blocks up to this point's. -/
private theorem acc_eq (c : Dev nD) : ∀ (n : ℕ) (hn : n < cfg1.N) (r : Fin 512) (q : Fin 4096),
    accAt1 V c n hn (ix2 r q)
      = Spec.cZero + ∑ kb ∈ Finset.range (n % 32 + 1), blockTerm V c (rowAt ⟨n, hn⟩ r) q kb := by
  intro n
  induction n with
  | zero =>
    intro hn r q
    have h0 : (⟨0, hn⟩ : Fin cfg1.N).val % 32 = 0 := rfl
    refine (congrFun (accAt1_first V c ⟨0, hn⟩ h0) (ix2 r q)).trans ?_
    refine (pay3_apply (yBlk V c ⟨0, hn⟩) (w1Blk V c ⟨0, hn⟩) (b1Blk V c ⟨0, hn⟩) (w2Blk V c ⟨0, hn⟩) (k1_pay2 (F := Ideal)) r q).trans ?_
    rw [pay2_apply, blockSum_eq]
    show _ = Spec.cZero + ∑ kb ∈ Finset.range 1, _
    rw [Finset.sum_range_one]
    rfl
  | succ n ih =>
    intro hn r q
    by_cases h0 : (n + 1) % 32 = 0
    · have h0' : (⟨n + 1, hn⟩ : Fin cfg1.N).val % 32 = 0 := h0
      refine (congrFun (accAt1_first V c ⟨n + 1, hn⟩ h0') (ix2 r q)).trans ?_
      refine (pay3_apply (yBlk V c ⟨n + 1, hn⟩) (w1Blk V c ⟨n + 1, hn⟩) (b1Blk V c ⟨n + 1, hn⟩) (w2Blk V c ⟨n + 1, hn⟩) (k1_pay2 (F := Ideal)) r q).trans ?_
      rw [pay2_apply, blockSum_eq]
      show Spec.cZero + blockTerm V c (rowAt ⟨n + 1, hn⟩ r) q ((n + 1) % 32) = Spec.cZero + ∑ kb ∈ Finset.range ((n + 1) % 32 + 1), _
      rw [h0, Finset.sum_range_one]
    · have h0' : ¬ (⟨n + 1, hn⟩ : Fin cfg1.N).val % 32 = 0 := h0
      refine (congrFun (accAt1_next V c ⟨n + 1, hn⟩ h0') (ix2 r q)).trans ?_
      refine (pay3_apply (yBlk V c ⟨n + 1, hn⟩) (w1Blk V c ⟨n + 1, hn⟩) (b1Blk V c ⟨n + 1, hn⟩) (w2Blk V c ⟨n + 1, hn⟩)
        (accAt1 V c n (Nat.lt_of_succ_lt hn)) r q).trans ?_
      rw [blockSum_eq, ih (Nat.lt_of_succ_lt hn) r q]
      have hm : (n + 1) % 32 = n % 32 + 1 := by omega
      have hr : rowAt ⟨n, Nat.lt_of_succ_lt hn⟩ r = rowAt ⟨n + 1, hn⟩ r :=
        Fin.ext (by show n / 32 * 512 + r.val = (n + 1) / 32 * 512 + r.val; omega)
      show Spec.cZero + _ + blockTerm V c (rowAt ⟨n + 1, hn⟩ r) q ((n + 1) % 32) = Spec.cZero + ∑ kb ∈ Finset.range ((n + 1) % 32 + 1), _
      rw [hm, hr, Finset.sum_range_succ _ (n % 32 + 1), add_assoc]

/-- After the last hidden block of a row tile the accumulator holds the whole sum over the 16384 hidden entries. -/
private theorem acc_last (c : Dev nD) (t : Fin cfg1.N) (h31 : t.val % 32 = 31) (r : Fin 512) (q : Fin 4096) :
    accAt1 V c t.val t.isLt (ix2 r q)
      = ∑ j : Fin 16384, Spec.gelu (Spec.hidden (yF V c) (w1F V c) (b1F V c) (rowAt t r) j) * w2F V c j q := by
  have e : t.val % 32 + 1 = 32 := by omega
  rw [acc_eq V c t.val t.isLt r q, e, Spec.sum_blocks, Finset.sum_range]
  unfold Spec.cZero
  rw [Ideal.ofBits_zero_f32, zero_add]
  refine Finset.sum_congr rfl fun kb _ => ?_
  unfold blockTerm
  rw [dif_pos kb.isLt]

/-! ## From the blocks written back to the array -/

/-- The specification's array. -/
private abbrev G1 (c : Dev nD) : S4096x4096.Idx → EReal :=
  fun i => Spec.ffn (yF V c) (w1F V c) (b1F V c) (w2F V c) (b2F V c) ⟨(i 0).val, (i 0).isLt⟩ ⟨(i 1).val, (i 1).isLt⟩

/-- What a point at the last hidden block of a row tile writes back is its block of the specification's array. -/
private theorem flushed_eq (c : Dev nD) (t : Fin cfg1.N) (h31 : t.val % 32 = 31) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  funext y
  obtain ⟨r, q, rfl⟩ : ∃ (r : Fin 512) (q : Fin 4096), y = ix2 r q := ⟨y 0, y 1, eq_ix2 y⟩
  show k1_pay1 (F := Ideal) (accAt1 V c t.val t.isLt) (b2Blk V c t) (ix2 r q) = G1 V c (((cfg1.win 5).blk t).view.emb (ix2 r q))
  rw [pay1_apply, acc_last V c t h31, b2Blk_apply]
  obtain ⟨-, -, -, -, -, -, -, -, -, -, e0, e1⟩ := idx_facts1 t
  have hX : ((cfg1.win 5).blk t).view.emb (ix2 r q) = (ix2 (rowAt t r) q : S4096x4096.Idx) :=
    funext fun a => Fin.ext (by
      match a with
      | ⟨0, _⟩ => show win1_5.index t (0 : Fin 2) * 512 + 1 * r.val = t.val / 32 * 512 + r.val; omega
      | ⟨1, _⟩ => show win1_5.index t (1 : Fin 2) * 4096 + 1 * q.val = q.val; omega)
  rw [hX]
  rfl

/-- An index of the result array is in point `t`'s block iff each coordinate is in the block's range on its axis. -/
private theorem mem_blk5 (t : Fin cfg1.N) (i : S4096x4096.Idx) :
    i ∈ ((cfg1.win 5).blk t).view.set ↔ ∀ a : Fin 2, win1_5.index t a * S512x4096.size a ≤ (i a).val
      ∧ (i a).val < win1_5.index t a * S512x4096.size a + S512x4096.size a := by
  show i ∈ ((View.whole main_v7).slice (win1_5.rect t)).set ↔ _
  rw [View.set_slice_whole, Rect.mem_set_unit]
  exact Iff.rfl

/-- THE COVER: row `ρ` of the result array lies in the row tile `ρ / 512`, which the point at that tile's last hidden
    block writes back. -/
private theorem cover5 (i : S4096x4096.Idx) :
    ∃ t : Fin cfg1.N, (cfg1.win 5).flush t = true ∧ i ∈ ((cfg1.win 5).blk t).view.set := by
  have hi0 : (i 0).val < 4096 := (i 0).isLt
  have hi1 : (i 1).val < 4096 := (i 1).isLt
  have hlt : 32 * ((i 0).val / 512) + 31 < cfg1.N := by rw [show cfg1.N = 256 from N_1]; omega
  obtain ⟨-, -, -, -, -, -, -, -, -, -, e0, e1⟩ := idx_facts1 ⟨32 * ((i 0).val / 512) + 31, hlt⟩
  have e0' : win1_5.index ⟨32 * ((i 0).val / 512) + 31, hlt⟩ (0 : Fin 2) = (32 * ((i 0).val / 512) + 31) / 32 := e0
  refine ⟨⟨32 * ((i 0).val / 512) + 31, hlt⟩, (flush1_5 _).mpr (by show (32 * ((i 0).val / 512) + 31) % 32 = 31; omega), ?_⟩
  rw [mem_blk5]
  intro a
  match a with
  | ⟨0, _⟩ =>
    show win1_5.index ⟨32 * ((i 0).val / 512) + 31, hlt⟩ (0 : Fin 2) * 512 ≤ (i 0).val
      ∧ (i 0).val < win1_5.index ⟨32 * ((i 0).val / 512) + 31, hlt⟩ (0 : Fin 2) * 512 + 512
    omega
  | ⟨1, _⟩ =>
    show win1_5.index ⟨32 * ((i 0).val / 512) + 31, hlt⟩ (1 : Fin 2) * 4096 ≤ (i 1).val
      ∧ (i 1).val < win1_5.index ⟨32 * ((i 0).val / 512) + 31, hlt⟩ (1 : Fin 2) * 4096 + 4096
    omega

/-- The result array of region 1 after its last point is the feed-forward block of its five input arrays as the
    region found them (the two biases are 1 x n arrays: their one row is read). -/
theorem arr1_value (c : Dev nD) :
    ((dat1 (F := Ideal) V c).arrAt 5 cfg1.N : S4096x4096.Idx → EReal) =
      fun i => Spec.ffn (fun r k => (V c main_v2 : S4096x4096.Idx → EReal) (ix2 r k))
        (fun k j => (V c main_v3 : S4096x16384.Idx → EReal) (ix2 k j))
        (fun j => (V c main_v5 : S1x16384.Idx → EReal) (ix2 (0 : Fin 1) j))
        (fun j q => (V c main_v4 : S16384x4096.Idx → EReal) (ix2 j q))
        (fun q => (V c main_v6 : S1x4096.Idx → EReal) (ix2 (0 : Fin 1) q))
        ⟨(i 0).val, (i 0).isLt⟩ ⟨(i 1).val, (i 1).isLt⟩ := by
  exact (dat1 (F := Ideal) V c).arrAt_eq_of_cover 5 (G1 V c)
    (fun t hf => flushed_eq V c t ((flush1_5 t).mp hf)) cover5

end Cert.KernelIdeal.HandValue

end
-- ==== Proof.KI.HostReads.lean ====
/-
  What the host operations leave in the buffers the regions read, at the ideal instance and at an index: a reshape
  of a vector of n entries to a 1 x n array reads, at (0, j), entry j; a change of float format is the identity on
  the extended reals; an argument no item writes holds its launch contents; the second region finds in the first
  region's result buffer what the first region's write-backs left.
-/
import proofs.«133951_j65077344469262_1_alg».proof.Proof.KI.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- A vector of `n` entries viewed as the row `1 x n` reads, at `(0, j)`, entry `j`: position `0 · n + j` of the
    row is position `j` of the vector. -/
private theorem shapeCast_row_apply {α : Type} {n : ℕ} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

/-- On the extended reals a change of float format moves no value: the narrowed array is the array. -/
private theorem truncf_ideal {s : Shape} {φ ψ : FTy} (a : FVec Ideal s φ) (h : ψ.bits < φ.bits) :
    (truncf ψ a h : s.Idx → EReal) = (a : s.Idx → EReal) := rfl

/-- An argument holds its launch contents at region 0's entry: the first host stretch writes no argument. -/
private theorem bnd1_arg (c : Dev nD) (r : Ref sig .tc) (h : r ∉ hostOps0_W) :
    bnd1 (F := Ideal) m ρ c (Proc.devRef .tc r) = m ((c : Thread nD τ).loc r) :=
  StableHlo.after_of_writes_sub hostOps0 _ hostOps0_writes (r := r) h

/-- A buffer that is no array of region 0 and that the first host stretch does not write holds its launch contents
    at region 0's exit. -/
private theorem bnd2_arg (c : Dev nD) (r : Ref sig .tc) (hw : ∀ w, Pipeline.arrRef spec0 w ≠ r) (h : r ∉ hostOps0_W) :
    bnd2 (F := Ideal) m ρ c (Proc.devRef .tc r) = m ((c : Thread nD τ).loc r) :=
  (bnd2_of_ne m ρ c r hw).trans (bnd1_arg m ρ c r h)

/-- Region 0 finds the input array as launched. -/
theorem ent0_arg0 (c : Dev nD) :
    (ent0 (F := Ideal) m ρ c main_arg0 : S4096x4096.Idx → EReal) = m ((c : Thread nD τ).loc main_arg0) :=
  bnd1_arg m ρ c main_arg0 (by decide)

/-- Region 0 finds the scale as a 1 x 4096 array: its row is the argument vector. -/
theorem ent0_v0 (c : Dev nD) (j : Fin 4096) :
    (ent0 (F := Ideal) m ρ c main_v0 : S1x4096.Idx → EReal) (ix2 (0 : Fin 1) j)
      = (m ((c : Thread nD τ).loc main_arg1) : S4096.Idx → EReal) (ix1 j) := by
  show StableHlo.after hostOps0 (bnd0 (F := Ideal) m ρ c) (Proc.devRef .tc main_v0) (ix2 (0 : Fin 1) j) = _
  after_results
  exact shapeCast_row_apply _ _ j

/-- Region 0 finds the shift as a 1 x 4096 array: its row is the argument vector. -/
theorem ent0_v1 (c : Dev nD) (j : Fin 4096) :
    (ent0 (F := Ideal) m ρ c main_v1 : S1x4096.Idx → EReal) (ix2 (0 : Fin 1) j)
      = (m ((c : Thread nD τ).loc main_arg2) : S4096.Idx → EReal) (ix1 j) := by
  show StableHlo.after hostOps0 (bnd0 (F := Ideal) m ρ c) (Proc.devRef .tc main_v1) (ix2 (0 : Fin 1) j) = _
  after_results
  exact shapeCast_row_apply _ _ j

/-- Region 1 finds in the normalised-rows buffer what region 0's write-backs left. -/
theorem ent1_v2 (c : Dev nD) :
    ent1 (F := Ideal) m ρ c main_v2 = (dat0 (ent0 (F := Ideal) m ρ) c).arrAt 3 cfg0.N :=
  (StableHlo.after_of_writes_sub hostOps1 _ hostOps1_writes (r := main_v2) (by decide)).trans (bnd2_arr m ρ c 3)

/-- Region 1 finds the first weight matrix: the cast to the narrower format is the identity on the extended reals. -/
theorem ent1_v3 (c : Dev nD) :
    (ent1 (F := Ideal) m ρ c main_v3 : S4096x16384.Idx → EReal) = m ((c : Thread nD τ).loc main_arg3) := by
  show StableHlo.after hostOps1 (bnd2 (F := Ideal) m ρ c) (Proc.devRef .tc main_v3) = _
  after_results
  exact (truncf_ideal (φ := .f32) (ψ := .bf16) _ bitsLt_bf16_f32).trans (bnd2_arg m ρ c main_arg3 (by decide) (by decide))

/-- Region 1 finds the second weight matrix likewise. -/
theorem ent1_v4 (c : Dev nD) :
    (ent1 (F := Ideal) m ρ c main_v4 : S16384x4096.Idx → EReal) = m ((c : Thread nD τ).loc main_arg5) := by
  show StableHlo.after hostOps1 (bnd2 (F := Ideal) m ρ c) (Proc.devRef .tc main_v4) = _
  after_results
  exact (truncf_ideal (φ := .f32) (ψ := .bf16) _ bitsLt_bf16_f32).trans (bnd2_arg m ρ c main_arg5 (by decide) (by decide))

/-- Region 1 finds the first bias as a 1 x 16384 array: its row is the argument vector. -/
theorem ent1_v5 (c : Dev nD) (j : Fin 16384) :
    (ent1 (F := Ideal) m ρ c main_v5 : S1x16384.Idx → EReal) (ix2 (0 : Fin 1) j)
      = (m ((c : Thread nD τ).loc main_arg4) : S16384.Idx → EReal) (ix1 j) := by
  show StableHlo.after hostOps1 (bnd2 (F := Ideal) m ρ c) (Proc.devRef .tc main_v5) (ix2 (0 : Fin 1) j) = _
  after_results
  rw [bnd2_arg m ρ c main_arg4 (by decide) (by decide)]
  exact shapeCast_row_apply _ _ j

/-- Region 1 finds the second bias as a 1 x 4096 array: its row is the argument vector. -/
theorem ent1_v6 (c : Dev nD) (q : Fin 4096) :
    (ent1 (F := Ideal) m ρ c main_v6 : S1x4096.Idx → EReal) (ix2 (0 : Fin 1) q)
      = (m ((c : Thread nD τ).loc main_arg6) : S4096.Idx → EReal) (ix1 q) := by
  show StableHlo.after hostOps1 (bnd2 (F := Ideal) m ρ c) (Proc.devRef .tc main_v6) (ix2 (0 : Fin 1) q) = _
  after_results
  rw [bnd2_arg m ρ c main_arg6 (by decide) (by decide)]
  exact shapeCast_row_apply _ _ q

end Cert.KernelIdeal.HandValue

end
-- ==== Proof.KI.Result.lean ====
/-
  The idealized kernel's result as one function of its seven arguments. The second region leaves in the result buffer
  the feed-forward block of what it found; what it found in the normalised-rows buffer is the layer normalisation
  the first region left there; the weights pass a change of float format, which is the identity on the extended
  reals, and the vectors a reshape, which moves no data. Composed, the result is the layer's specification.
-/
import proofs.«133951_j65077344469262_1_alg».proof.Proof.KI.Launch
import proofs.«133951_j65077344469262_1_alg».proof.Proof.KI.Value0
import proofs.«133951_j65077344469262_1_alg».proof.Proof.KI.Value1
import proofs.«133951_j65077344469262_1_alg».proof.Proof.KI.HostReads
import proofs.«133951_j65077344469262_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The last valuation's result buffer is the specification of the launch arguments. -/
theorem result_is_G (c : Dev nD) :
    (bnd4 (F := Ideal) m ρ c (Proc.devRef .tc main_v7) : S4096x4096.Idx → EReal)
      = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [bnd4_result, arr1_value (ent1 (F := Ideal) m ρ) c]
  -- what the first region found, in terms of the launch arguments
  have g0 : (fun (r k : Fin 4096) => (ent0 (F := Ideal) m ρ c main_arg0 : S4096x4096.Idx → EReal) (ix2 r k))
      = fun r k => ((m ((c : Thread nD τ).loc main_arg0)) : S4096x4096.Idx → EReal) (ix2 r k) := by
    funext r k; exact congrFun (ent0_arg0 m ρ c) (ix2 r k)
  have g1 : (fun (j : Fin 4096) => (ent0 (F := Ideal) m ρ c main_v0 : S1x4096.Idx → EReal) (ix2 (0 : Fin 1) j))
      = fun j => ((m ((c : Thread nD τ).loc main_arg1)) : S4096.Idx → EReal) (ix1 j) := funext fun j => ent0_v0 m ρ c j
  have g2 : (fun (j : Fin 4096) => (ent0 (F := Ideal) m ρ c main_v1 : S1x4096.Idx → EReal) (ix2 (0 : Fin 1) j))
      = fun j => ((m ((c : Thread nD τ).loc main_arg2)) : S4096.Idx → EReal) (ix1 j) := funext fun j => ent0_v1 m ρ c j
  -- the normalised rows the second region found
  have hln : (fun (r k : Fin 4096) => (ent1 (F := Ideal) m ρ c main_v2 : S4096x4096.Idx → EReal) (ix2 r k))
      = Spec.layerNorm (fun r k => ((m ((c : Thread nD τ).loc main_arg0)) : S4096x4096.Idx → EReal) (ix2 r k))
          (fun j => ((m ((c : Thread nD τ).loc main_arg1)) : S4096.Idx → EReal) (ix1 j)) (fun j => ((m ((c : Thread nD τ).loc main_arg2)) : S4096.Idx → EReal) (ix1 j)) := by
    funext r k
    rw [ent1_v2, arr0_value (ent0 (F := Ideal) m ρ) c]
    exact congrFun (congrFun (congr (congr (congrArg Spec.layerNorm g0) g1) g2) r) k
  -- the weights and the biases the second region found
  have h3 : (fun (k : Fin 4096) (j : Fin 16384) => (ent1 (F := Ideal) m ρ c main_v3 : S4096x16384.Idx → EReal) (ix2 k j))
      = fun k j => ((m ((c : Thread nD τ).loc main_arg3)) : S4096x16384.Idx → EReal) (ix2 k j) := by
    funext k j; exact congrFun (ent1_v3 m ρ c) (ix2 k j)
  have h5 : (fun (j : Fin 16384) => (ent1 (F := Ideal) m ρ c main_v5 : S1x16384.Idx → EReal) (ix2 (0 : Fin 1) j))
      = fun j => ((m ((c : Thread nD τ).loc main_arg4)) : S16384.Idx → EReal) (ix1 j) := funext fun j => ent1_v5 m ρ c j
  have h4 : (fun (j : Fin 16384) (q : Fin 4096) => (ent1 (F := Ideal) m ρ c main_v4 : S16384x4096.Idx → EReal) (ix2 j q))
      = fun j q => ((m ((c : Thread nD τ).loc main_arg5)) : S16384x4096.Idx → EReal) (ix2 j q) := by
    funext j q; exact congrFun (ent1_v4 m ρ c) (ix2 j q)
  have h6 : (fun (q : Fin 4096) => (ent1 (F := Ideal) m ρ c main_v6 : S1x4096.Idx → EReal) (ix2 (0 : Fin 1) q))
      = fun q => ((m ((c : Thread nD τ).loc main_arg6)) : S4096.Idx → EReal) (ix1 q) := funext fun q => ent1_v6 m ρ c q
  funext i
  exact congrFun (congrFun (congr (congr (congr (congr (congrArg Spec.ffn hln) h3) h5) h4) h6) _) _

/-- THE KERNEL'S RUN WITH ITS VALUE: every weakly fair execution terminates, the result buffer holds the
    specification of the arguments, and the arguments are unchanged. -/
theorem run_value : θ_run defs (onTc (τ := τ) (main (F := Ideal))) ⟨m, fun _ => 0, ρ⟩ (fun r => ∀ c : Dev nD,
      r.2.mem ((c.tc : Thread nD τ).loc main_v7)
        = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (result_is_G m ρ c),
     (h c _ (mem_uc main_arg0 (by decide))).trans (bnd4_main_arg0 m ρ c),
     (h c _ (mem_uc main_arg1 (by decide))).trans (bnd4_main_arg1 m ρ c),
     (h c _ (mem_uc main_arg2 (by decide))).trans (bnd4_main_arg2 m ρ c),
     (h c _ (mem_uc main_arg3 (by decide))).trans (bnd4_main_arg3 m ρ c),
     (h c _ (mem_uc main_arg4 (by decide))).trans (bnd4_main_arg4 m ρ c),
     (h c _ (mem_uc main_arg5 (by decide))).trans (bnd4_main_arg5 m ρ c),
     (h c _ (mem_uc main_arg6 (by decide))).trans (bnd4_main_arg6 m ρ c)⟩) (run_all (F := Ideal) m ρ)

end Cert.KernelIdeal.HandValue

end
-- ==== Proof.RefValue.lean ====
/-
  The reference program's result, at the ideal instance, is the layer's function of the seven arguments: its
  operations read one at a time at an index are exactly the terms of the specification — the row mean and
  variance as sums over the row divided by 4096, the reciprocal root, the scale and shift, the two matrix
  products as sums over the contracted axis, the tanh form of the GELU with the same four literals.
-/
import proofs.«133951_j65077344469262_1_alg».proof.Proof.Gen.ReferenceIdeal.Read
import proofs.«133951_j65077344469262_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Idealize.SL Idealize.SL.Sem
open Idealize.ShloMosaic.Pipeline (Dat Cfg Window)

/-! ## Read's composed index functions are the coordinate constructors -/

section Indices
variable (r k : Fin 4096) (c : Fin 1) (j : Fin 16384)

/-- The one coordinate of a size-one axis. -/
private abbrev z1 : Fin 1 := ⟨0, Nat.one_pos⟩

private theorem e0 : idx_main_v0 (ix1 r) k = ix2 r k := by
  funext a; match a with | ⟨0, _⟩ => rfl | ⟨1, _⟩ => rfl
private theorem e7 : idx_main_v7 (ix1 r) k = ix2 r k := by
  funext a; match a with | ⟨0, _⟩ => rfl | ⟨1, _⟩ => rfl
private theorem e1 : idx_main_v1 (ix2 r c) = ix1 r := by
  funext a; match a with | ⟨0, _⟩ => rfl
private theorem e8 : idx_main_v8 (ix2 r c) = ix1 r := by
  funext a; match a with | ⟨0, _⟩ => rfl
private theorem e4 : idx_main_v4 (ix2 r k) = ix2 r z1 := by
  funext a; match a with | ⟨0, _⟩ => rfl | ⟨1, _⟩ => rfl
private theorem e14 : idx_main_v14 (ix2 r k) = ix2 r z1 := by
  funext a; match a with | ⟨0, _⟩ => rfl | ⟨1, _⟩ => rfl
private theorem e16 : idx_main_v16 (ix2 r k) = ix2 r z1 := by
  funext a; match a with | ⟨0, _⟩ => rfl | ⟨1, _⟩ => rfl
private theorem e19 : idx_main_v19 (ix2 r k) = ix2 z1 k := by
  funext a; match a with | ⟨0, _⟩ => rfl | ⟨1, _⟩ => rfl
private theorem e22 : idx_main_v22 (ix2 r k) = ix2 z1 k := by
  funext a; match a with | ⟨0, _⟩ => rfl | ⟨1, _⟩ => rfl
private theorem e43 : idx_main_v43 (ix2 r k) = ix2 z1 k := by
  funext a; match a with | ⟨0, _⟩ => rfl | ⟨1, _⟩ => rfl
private theorem e18 : idx_main_v18 (ix2 c k) = ix1 k := by
  funext a; match a with | ⟨0, _⟩ => rfl
private theorem e21 : idx_main_v21 (ix2 c k) = ix1 k := by
  funext a; match a with | ⟨0, _⟩ => rfl
private theorem e42 : idx_main_v42 (ix2 c k) = ix1 k := by
  funext a; match a with | ⟨0, _⟩ => rfl
private theorem e26 : idx_main_v26 (ix2 r j) = ix2 z1 j := by
  funext a; match a with | ⟨0, _⟩ => rfl | ⟨1, _⟩ => rfl
private theorem e25 : idx_main_v25 (ix2 c j) = ix1 j := by
  funext a; match a with | ⟨0, _⟩ => rfl
private theorem l24 : lidx_main_v24 (ix2 r j) k = ix2 r k := by
  funext a; match a with | ⟨0, _⟩ => rfl | ⟨1, _⟩ => rfl
private theorem r24 : ridx_main_v24 (ix2 r j) k = ix2 k j := by
  funext a; match a with | ⟨0, _⟩ => rfl | ⟨1, _⟩ => rfl
private theorem l41 : lidx_main_v41 (ix2 r k) j = ix2 r j := by
  funext a; match a with | ⟨0, _⟩ => rfl | ⟨1, _⟩ => rfl
private theorem r41 : ridx_main_v41 (ix2 r k) j = ix2 j k := by
  funext a; match a with | ⟨0, _⟩ => rfl | ⟨1, _⟩ => rfl

end Indices

/-! ## The stages, each read at an index -/

section Stages
variable (x0 : (⟨S4096x4096, .f32⟩ : BufTy).Contents (Elt Ideal)) (x1 x2 : (⟨S4096, .f32⟩ : BufTy).Contents (Elt Ideal))
  (x3 : (⟨S4096x16384, .f32⟩ : BufTy).Contents (Elt Ideal)) (x4 : (⟨S16384, .f32⟩ : BufTy).Contents (Elt Ideal))
  (x5 : (⟨S16384x4096, .f32⟩ : BufTy).Contents (Elt Ideal)) (x6 : (⟨S4096, .f32⟩ : BufTy).Contents (Elt Ideal))

/-- The column of row means: the row's sum from the zero word, divided by the word for 4096. -/
private theorem mean_at (r : Fin 4096) (c : Fin 1) :
    val_main_v3 (F := Ideal) x0 (ix2 r c) = Spec.rowMean (fun k => x0 (ix2 r k)) := by
  simp only [val_main_v3_apply, val_main_v1_apply, val_main_v0_apply, val_main_v2_apply, val_main_cst_apply,
    val_main_cst_0_apply, e1, e0, Ideal.hostDivf_def, Ideal.ofBits_def]
  rfl

/-- An entry minus its row's mean. -/
private theorem centred_at (r k : Fin 4096) :
    val_main_v5 (F := Ideal) x0 (ix2 r k) = Spec.centred (fun k => x0 (ix2 r k)) k := by
  simp only [val_main_v5_apply, val_main_v4_apply, e4, mean_at, Ideal.subf_def]
  rfl

/-- The same difference, as the program computes it a second time for the normalised entry. -/
private theorem centred_at' (r k : Fin 4096) :
    val_main_v15 (F := Ideal) x0 (ix2 r k) = Spec.centred (fun k => x0 (ix2 r k)) k := by
  simp only [val_main_v15_apply, val_main_v14_apply, e14, mean_at, Ideal.subf_def]
  rfl

/-- The column of reciprocal roots: the mean of the squared differences plus the small constant, under the
    reciprocal root. -/
private theorem scale_at (r : Fin 4096) (c : Fin 1) :
    val_main_v13 (F := Ideal) x0 (ix2 r c) = Spec.rowScale (fun k => x0 (ix2 r k)) := by
  simp only [val_main_v13_apply, val_main_v12_apply, val_main_v10_apply, val_main_v8_apply, val_main_v7_apply,
    val_main_v9_apply, val_main_v11_apply, val_main_cst_1_apply, val_main_cst_2_apply, val_main_cst_3_apply,
    val_main_v6_apply, e8, e7, centred_at, Ideal.hostUnary_rsqrt_def, Ideal.addf_def, Ideal.hostDivf_def,
    Ideal.mulf_def, Ideal.ofBits_def]
  rfl

/-- The normalised, scaled and shifted entry. -/
private theorem norm_at (r k : Fin 4096) :
    val_main_v23 (F := Ideal) x0 x1 x2 (ix2 r k)
      = Spec.layerNorm (fun r k => x0 (ix2 r k)) (fun j => x1 (ix1 j)) (fun j => x2 (ix1 j)) r k := by
  simp only [val_main_v23_apply, val_main_v20_apply, val_main_v22_apply, val_main_v21_apply, val_main_v19_apply,
    val_main_v18_apply, val_main_v17_apply, val_main_v16_apply, e16, e19, e18, e22, e21, centred_at', scale_at,
    Ideal.addf_def, Ideal.mulf_def]
  rfl

/-- The first product with its bias. -/
private theorem hidden_at (r : Fin 4096) (j : Fin 16384) :
    val_main_v27 (F := Ideal) x0 x1 x2 x3 x4 (ix2 r j)
      = Spec.hidden (Spec.layerNorm (fun r k => x0 (ix2 r k)) (fun j => x1 (ix1 j)) (fun j => x2 (ix1 j)))
          (fun k j => x3 (ix2 k j)) (fun j => x4 (ix1 j)) r j := by
  simp only [val_main_v27_apply, val_main_v24_apply, val_main_v26_apply, val_main_v25_apply, l24, r24, e26, e25,
    norm_at, Ideal.addf_def]
  rfl

/-- The tanh form of the GELU of the hidden entry, with the four literals as the words the program prints. -/
private theorem gelu_at (r : Fin 4096) (j : Fin 16384) :
    val_main_v40 (F := Ideal) x0 x1 x2 x3 x4 (ix2 r j)
      = Spec.gelu (Spec.hidden (Spec.layerNorm (fun r k => x0 (ix2 r k)) (fun j => x1 (ix1 j)) (fun j => x2 (ix1 j)))
          (fun k j => x3 (ix2 k j)) (fun j => x4 (ix1 j)) r j) := by
  simp only [val_main_v40_apply, val_main_v39_apply, val_main_v38_apply, val_main_v37_apply, val_main_v36_apply,
    val_main_v35_apply, val_main_v34_apply, val_main_v33_apply, val_main_v32_apply, val_main_v31_apply,
    val_main_v30_apply, val_main_v29_apply, val_main_v28_apply, val_main_cst_4_apply, val_main_cst_5_apply,
    val_main_cst_6_apply, val_main_cst_7_apply, hidden_at, Ideal.addf_def, Ideal.mulf_def,
    Ideal.hostUnary_tanh_def, Ideal.ofBits_def]
  rfl

end Stages

/-- The reference's last stage is the specification. -/
theorem val_is_G (x0 : (⟨S4096x4096, .f32⟩ : BufTy).Contents (Elt Ideal)) (x1 x2 : (⟨S4096, .f32⟩ : BufTy).Contents (Elt Ideal))
    (x3 : (⟨S4096x16384, .f32⟩ : BufTy).Contents (Elt Ideal)) (x4 : (⟨S16384, .f32⟩ : BufTy).Contents (Elt Ideal))
    (x5 : (⟨S16384x4096, .f32⟩ : BufTy).Contents (Elt Ideal)) (x6 : (⟨S4096, .f32⟩ : BufTy).Contents (Elt Ideal)) :
    val_main_v44 (F := Ideal) x0 x1 x2 x3 x4 x5 x6 = Spec.G x0 x1 x2 x3 x4 x5 x6 := by
  funext i
  obtain ⟨r, q, rfl⟩ : ∃ (r q : Fin 4096), i = ix2 r q := ⟨i 0, i 1, eq_ix2 i⟩
  simp only [val_main_v44_apply, val_main_v41_apply, val_main_v43_apply, val_main_v42_apply, l41, r41, e43, e42,
    gelu_at, Ideal.addf_def]
  rfl

end Cert.ReferenceIdeal.RefValue

end
-- ==== Proof.lean ====
/-
  Layer normalisation followed by a feed-forward block (matrix product, tanh GELU, matrix product), as a TPU program
  of two kernel launches against the plain array program.

  The first launch normalises 256 rows at a time. The second, for each tile of 512 rows, walks the 32 blocks of 512
  hidden entries: it multiplies the tile by the block's columns of the first weight matrix, adds the bias, applies
  the GELU, multiplies by the block's rows of the second weight matrix and adds the product into an accumulator it
  keeps between steps; after the last block it adds the second bias and writes the tile out.

  Frames: each program terminates without a fault and leaves its arguments as it found them; for the two kernel
  programs this is the run of the launches and the host operations between them, with the accumulator's contents
  carried in the second launch's invariant.
  Value, on the extended reals: narrowing a float format is the identity, a matrix product into a zero accumulator is
  the sum over the contracted axis, and the 32 partial sums added one after the other from zero are the sum over all
  16384 hidden entries, addition being commutative and associative there (no finiteness is used). Both programs
  therefore compute the same function of the seven arguments, index by index.
-/
import proofs.«133951_j65077344469262_1_alg».proof.Defs
import proofs.«133951_j65077344469262_1_alg».proof.Proof.Gen.Kernel
import proofs.«133951_j65077344469262_1_alg».proof.Proof.Gen.KernelIdeal
import proofs.«133951_j65077344469262_1_alg».proof.Proof.Gen.ReferenceIdeal
import proofs.«133951_j65077344469262_1_alg».proof.Proof.Gen.Pre_finite_inputs
import proofs.«133951_j65077344469262_1_alg».proof.Proof.Gen.ReferenceIdeal.Run
import proofs.«133951_j65077344469262_1_alg».proof.Proof.Gen.ReferenceIdeal.Read
import proofs.«133951_j65077344469262_1_alg».proof.Proof.K.Launch
import proofs.«133951_j65077344469262_1_alg».proof.Proof.KI.Result
import proofs.«133951_j65077344469262_1_alg».proof.Proof.RefValue

noncomputable section

namespace Cert.Proof

open Idealize.ShloMosaic Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Hand.frame_all (F := Bits) m ρ

/-- The idealized program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the layer's specification of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.val_is_G,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
